-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x8 : Shape := ⟨2, ![1600000, 8]⟩
abbrev S1600000x1 : Shape := ⟨2, ![1600000, 1]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S1600000x1 : S_.BroadcastsInDim S1600000x1 (![] : Fin 0 → Fin S1600000x1.rank)
  reducesTo_S1600000x1_S_d0_1 : S1600000x1.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : IVec S1x1600000 32 := (extractStridedSlice S1x1600000 ![1, 0] · slices_S2x1600000_S1x1600000_1_0) main_arg1
  let main_v55 : IVec S1600000 32 := shapeCast S1600000 main_v54 shapeCasts_S1x1600000_S1600000
  let main_c_20 : IVec S_ 32 := constantI S_ 32 4294867296#32
  let main_v56 : IVec S1600000 32 := broadcastInDim S1600000 ![] bcast_S_S1600000 main_c_20
  let main_v57 : IVec S1600000 1 := cmpi .sge main_v55 main_v56
  let main_v58 : IVec S1x1600000 32 := (extractStridedSlice S1x1600000 ![1, 0] · slices_S2x1600000_S1x1600000_1_0) main_arg1
  let main_v59 : IVec S1600000 32 := shapeCast S1600000 main_v58 shapeCasts_S1x1600000_S1600000
  let main_c_21 : IVec S_ 32 := constantI S_ 32 100000#32
  let main_v60 : IVec S1600000 32 := broadcastInDim S1600000 ![] bcast_S_S1600000 main_c_21
  let main_v61 : IVec S1600000 1 := cmpi .slt main_v59 main_v60
  let main_v62 : IVec S1600000 1 := andi main_v57 main_v61
  let main_c_22 : IVec S_ 1 := constantI S_ 1 1#1
  let main_v63 : IVec S_ 1 := (fun x v => Host.reduce IntOp.andi x v reducesTo_S1600000_S_d0 h_S_) main_v62 main_c_22
  let main_v64 : IVec S_ 1 := andi main_v53 main_v63
  main_v64

def fn_part2 {F : FTy → Type} [FloatOps F] (main_arg1 : IVec S2x1600000 32) (main_arg8 : FVec F S128x128 .f32) (main_arg9 : FVec F S128 .f32) (main_arg10 : FVec F S256x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_v48 main_v49 main_v50

def fn_part1 {F : FTy → Type} [FloatOps F] (main_arg1 : IVec S2x1600000 32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_v33

def fn {F : FTy → Type} [FloatOps F] (main_arg0 : FVec F S100000x128 .f32) (main_arg1 : IVec S2x1600000 32) (main_arg2 : FVec F S1600000x8 .f32) (main_arg3 : FVec F S1600000x1 .f32) (main_arg4 : FVec F S8x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x8 .f32 := Host.absf main_arg2
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S1600000x1 .f32 := Host.absf main_arg3
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S8x128 .f32 := Host.absf main_arg4
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg1 main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x8 : Shape := ⟨2, ![1600000, 8]⟩
abbrev S1600000x1 : Shape := ⟨2, ![1600000, 1]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S1x1600000 : Shape := ⟨2, ![1, 1600000]⟩
abbrev S1600000 : Shape := ⟨1, ![1600000]⟩
abbrev S_ : Shape := ⟨0, ![]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S4000x8 : Shape := ⟨2, ![4000, 8]⟩
abbrev S4000x128 : Shape := ⟨2, ![4000, 128]⟩
abbrev S2000x128 : Shape := ⟨2, ![2000, 128]⟩

abbrev nBuf : Space → Nat
  | .hbm => 51
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x8, .f32⟩
  | .hbm, ⟨3, _⟩ => ⟨S1600000x1, .f32⟩
  | .hbm, ⟨4, _⟩ => ⟨S8x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1, .i32⟩
  | .hbm, ⟨25, _⟩ => ⟨S_, .i32⟩
  | .hbm, ⟨26, _⟩ => ⟨S1600000x1, .i32⟩
  | .hbm, ⟨27, _⟩ => ⟨S1600000x1, .i1⟩
  | .hbm, ⟨28, _⟩ => ⟨S1x1, .i32⟩
  | .hbm, ⟨29, _⟩ => ⟨S1600000x1, .i32⟩
  | .hbm, ⟨30, _⟩ => ⟨S1600000x1, .i1⟩
  | .hbm, ⟨31, _⟩ => ⟨S1600000x1, .i1⟩
  | .hbm, ⟨32, _⟩ => ⟨S_, .i1⟩
  | .hbm, ⟨33, _⟩ => ⟨S1600000, .i1⟩
  | .hbm, ⟨34, _⟩ => ⟨S1600000x128, .f32⟩
  | .hbm, ⟨35, _⟩ => ⟨S1600000x128, .i1⟩
  | .hbm, ⟨36, _⟩ => ⟨S_, .f32⟩
  | .hbm, ⟨37, _⟩ => ⟨S1600000x128, .f32⟩
  | .hbm, ⟨38, _⟩ => ⟨S1600000x128, .f32⟩
  | .hbm, ⟨39, _⟩ => ⟨S1x128, .f32⟩
  | .hbm, ⟨40, _⟩ => ⟨S1x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S128x128, .f32⟩
  | .hbm, ⟨49, _⟩ => ⟨S128x128, .f32⟩
  | .hbm, ⟨50, _⟩ => ⟨S100000x128, .f32⟩
  | .local _ .vmem, ⟨0, _⟩ => ⟨S4000x8, .f32⟩
  | .local _ .vmem, ⟨1, _⟩ => ⟨S4000x8, .f32⟩
  | .local _ .vmem, ⟨2, _⟩ => ⟨S4000x128, .f32⟩
  | .local _ .vmem, ⟨3, _⟩ => ⟨S4000x128, .f32⟩
  | .local _ .vmem, ⟨4, _⟩ => ⟨S8x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S128_S1x128 : S128.ShapeCasts S1x128
  inb_S4000x8_S4000x8_0_0 : ∀ a, (![0, 0] : Fin 2 → Nat) a + S4000x8.size a ≤ S4000x8.size a
  h_S4000x8 : 0 < S4000x8.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  broadcasts_S1x128_S2000x128 : S1x128.Broadcasts S2000x128
  shapeCasts_S128x128_S128x128 : S128x128.ShapeCasts S128x128
  shapeCasts_S2000x128_S2000x128 : S2000x128.ShapeCasts S2000x128
  gather_S100000x128_S1600000x1_S1600000x128_1_0_n_n_0_1_1128_wf : GatherDims.WF S100000x128 S1600000x1 S1600000x128 [1] [0] [] [0] [] 1 ![1, 128]
  dot_S4000x8_S8x128_S4000x128_1_0_0_1_n_n_wf : DotDims.WF S4000x8 S8x128 S4000x128 [1] [0] [0] [1] [] []
  dot_S4000x128_S128x128_S4000x128_1_0_0_1_n_n_wf : DotDims.WF S4000x128 S128x128 S4000x128 [1] [0] [0] [1] [] []
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S1600000x8.size a
  hwx0_0 : ∀ i : grid0.Coords, EltTy.bits .f32 = 32 ∨ (Rect.block (s := S1600000x8) S4000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S1600000x128.size a
  hwx0_1 : ∀ i : grid0.Coords, EltTy.bits .f32 = 32 ∨ (Rect.block (s := S1600000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S1600000x128.size a
  hwx0_6 : ∀ i : grid0.Coords, EltTy.bits .f32 = 32 ∨ (Rect.block (s := S1600000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v15) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x8 : Shape := ⟨2, ![1600000, 8]⟩
abbrev S1600000x1 : Shape := ⟨2, ![1600000, 1]⟩
abbrev S8x128 : Shape := ⟨2, ![8, 128]⟩
abbrev S128 : Shape := ⟨1, ![128]⟩
abbrev S128x128 : Shape := ⟨2, ![128, 128]⟩
abbrev S256x128 : Shape := ⟨2, ![256, 128]⟩
abbrev S1x1600000 : Shape := ⟨2, ![1, 1600000]⟩
abbrev S1600000 : Shape := ⟨1, ![1600000]⟩
abbrev S1600000x128 : Shape := ⟨2, ![1600000, 128]⟩
abbrev S1x128 : Shape := ⟨2, ![1, 128]⟩
abbrev S_ : Shape := ⟨0, ![]⟩
abbrev S1600000x128x1 : Shape := ⟨3, ![1600000, 128, 1]⟩
abbrev S100000x256 : Shape := ⟨2, ![100000, 256]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x8, .f32⟩
  | .hbm, ⟨3, _⟩ => ⟨S1600000x1, .f32⟩
  | .hbm, ⟨4, _⟩ => ⟨S8x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1600000x128, .f32⟩
  | .hbm, ⟨17, _⟩ => ⟨S1x128, .f32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S1600000x128, .f32⟩
  | .hbm, ⟨27, _⟩ => ⟨S1600000x128, .f32⟩
  | .hbm, ⟨28, _⟩ => ⟨S1600000x128, .f32⟩
  | .hbm, ⟨29, _⟩ => ⟨S1600000x128, .f32⟩
  | .hbm, ⟨30, _⟩ => ⟨S1x128, .f32⟩
  | .hbm, ⟨31, _⟩ => ⟨S1600000x128, .f32⟩
  | .hbm, ⟨32, _⟩ => ⟨S1600000x128, .f32⟩
  | .hbm, ⟨33, _⟩ => ⟨S1600000x128x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x128x1, .f32⟩
  | .hbm, ⟨44, _⟩ => ⟨S1600000x128x1, .f32⟩
  | .hbm, ⟨45, _⟩ => ⟨S_, .f32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  shapeCasts_S1600000x128_S1600000x128x1 : S1600000x128.ShapeCasts S1600000x128x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x128_S1600000x128x1_0_1 : S1600000x128.BroadcastsInDim S1600000x128x1 (![0, 1] : Fin 2 → Fin S1600000x128x1.rank)
  reducesTo_S1600000x128x1_S1600000x128_d2 : S1600000x128x1.ReducesTo [2] S1600000x128
  h_S_ : 0 < S_.numel
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  dot_S1600000x8_S8x128_S1600000x128_1_0_0_1_n_n_wf : DotDims.WF S1600000x8 S8x128 S1600000x128 [1] [0] [0] [1] [] []
  dot_S1600000x128_S128x128_S1600000x128_1_0_0_1_n_n_wf : DotDims.WF S1600000x128 S128x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []

variable [Facts₀]

def dot_S1600000x8_S8x128_S1600000x128_1_0_0_1_n_n : DotDims S1600000x8 S8x128 S1600000x128 where
  lhsContracting := [1]
  rhsContracting := [0]
  lhsNonContracting := [0]
  rhsNonContracting := [1]
  lhsBatch := []
  rhsBatch := []
  wf := dot_S1600000x8_S8x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The two regular stages of the message-passing layer, as functions of whole arrays over the extended reals,
  index by index.

  * Edge stage: for edge `e` and channel `d`,
      `messages (e, d) = nodeJ (e, d) · ( Σ_k silu ( Σ_j rbf (e, j) · W1 (j, k) + b1 k ) · W2 (k, d) + b2 d )`
    with `silu x = x · 1 / (1 + e^(-x))`: the radial network's weight times the neighbour's feature.
  * Node stage: for node `n` and channel `d`,
      `nodeOut (n, d) = Σ_k ( Σ_j nf (n, j) · Wself (j, k) + bself k ) · Wtop (k, d) + Σ_k agg (n, k) · Wbot (k, d) + bcat d`:
    the self-interaction followed by the projection of the pair (self, aggregate), the projection matrix cut into
    its upper half `Wtop` (rows 0–127) and its lower half `Wbot` (rows 128–255).
  The biases are taken as rows of shape [1, 128], as the two kernels receive them.
-/
import Idealize.ShloMosaic.PureOps.Ideal
import Idealize.ShloMosaic.Lib.ValueIdx

noncomputable section

open scoped BigOperators

namespace Cert.Spec

open Idealize.ShloMosaic Idealize.ShloMosaic.ValueIdx

/-- The radial network's hidden activation at edge `e`, hidden channel `k`: `silu` of the affine image of the edge's
    eight radial basis values. -/
def hidden (rbf : FVec Ideal ⟨2, ![1600000, 8]⟩ .f32) (w1 : FVec Ideal ⟨2, ![8, 128]⟩ .f32) (b1 : FVec Ideal ⟨2, ![1, 128]⟩ .f32)
    (e : Fin 1600000) (k : Fin 128) : EReal :=
  ((∑ j : Fin 8, rbf (ix2 e j) * w1 (ix2 j k)) + b1 (ix2 0 k))
    * Ideal.logistic ((∑ j : Fin 8, rbf (ix2 e j) * w1 (ix2 j k)) + b1 (ix2 0 k))

/-- The radial network's output at edge `e`, channel `d`: the per-edge weight of the (scalar) tensor product. -/
def weight (rbf : FVec Ideal ⟨2, ![1600000, 8]⟩ .f32) (w1 : FVec Ideal ⟨2, ![8, 128]⟩ .f32) (b1 : FVec Ideal ⟨2, ![1, 128]⟩ .f32)
    (w2 : FVec Ideal ⟨2, ![128, 128]⟩ .f32) (b2 : FVec Ideal ⟨2, ![1, 128]⟩ .f32) (e : Fin 1600000) (d : Fin 128) : EReal :=
  (∑ k : Fin 128, hidden rbf w1 b1 e k * w2 (ix2 k d)) + b2 (ix2 0 d)

/-- The message of every edge: the gathered neighbour feature times the edge's weight, channel by channel. -/
def messages (rbf : FVec Ideal ⟨2, ![1600000, 8]⟩ .f32) (nodeJ : FVec Ideal ⟨2, ![1600000, 128]⟩ .f32)
    (w1 : FVec Ideal ⟨2, ![8, 128]⟩ .f32) (b1 : FVec Ideal ⟨2, ![1, 128]⟩ .f32)
    (w2 : FVec Ideal ⟨2, ![128, 128]⟩ .f32) (b2 : FVec Ideal ⟨2, ![1, 128]⟩ .f32) : FVec Ideal ⟨2, ![1600000, 128]⟩ .f32 :=
  fun i => nodeJ i * weight rbf w1 b1 w2 b2 (i 0) (i 1)

/-- The self-interaction at node `n`, channel `k`. -/
def selfOut (nf : FVec Ideal ⟨2, ![100000, 128]⟩ .f32) (wself : FVec Ideal ⟨2, ![128, 128]⟩ .f32) (bself : FVec Ideal ⟨2, ![1, 128]⟩ .f32)
    (n : Fin 100000) (k : Fin 128) : EReal :=
  (∑ j : Fin 128, nf (ix2 n j) * wself (ix2 j k)) + bself (ix2 0 k)

/-- The layer's output: the projection of (self-interaction, aggregate), written as the sum of the two half products. -/
def nodeOut (nf : FVec Ideal ⟨2, ![100000, 128]⟩ .f32) (agg : FVec Ideal ⟨2, ![100000, 128]⟩ .f32)
    (wself : FVec Ideal ⟨2, ![128, 128]⟩ .f32) (bself : FVec Ideal ⟨2, ![1, 128]⟩ .f32)
    (wtop : FVec Ideal ⟨2, ![128, 128]⟩ .f32) (wbot : FVec Ideal ⟨2, ![128, 128]⟩ .f32) (bcat : FVec Ideal ⟨2, ![1, 128]⟩ .f32) :
    FVec Ideal ⟨2, ![100000, 128]⟩ .f32 :=
  fun i => ((∑ k : Fin 128, selfOut nf wself bself (i 0) k * wtop (ix2 k (i 1)))
      + (∑ k : Fin 128, agg (ix2 (i 0) k) * wbot (ix2 k (i 1)))) + bcat (ix2 0 (i 1))

/-- A bias vector as the one-row matrix the kernels receive. -/
def rowOf (b : FVec Ideal ⟨1, ![128]⟩ .f32) : FVec Ideal ⟨2, ![1, 128]⟩ .f32 := fun i => b (ix1 (i 1))

/-- Rows 0–127 of the projection matrix: the half that meets the self-interaction. -/
def topOf (w : FVec Ideal ⟨2, ![256, 128]⟩ .f32) : FVec Ideal ⟨2, ![128, 128]⟩ .f32 :=
  fun i => w (ix2 ⟨(i 0).val, by have h : (i 0).val < 128 := (i 0).isLt; omega⟩ (i 1))

/-- Rows 128–255 of the projection matrix: the half that meets the aggregate. -/
def botOf (w : FVec Ideal ⟨2, ![256, 128]⟩ .f32) : FVec Ideal ⟨2, ![128, 128]⟩ .f32 :=
  fun i => w (ix2 ⟨(i 0).val + 128, by have h : (i 0).val < 128 := (i 0).isLt; omega⟩ (i 1))

end Cert.Spec

end
-- ==== Proof.EdgeArray.lean ====
/-
  The edge stage of the message-passing layer, read off the region that computes it.

  The region runs over 400 points; point t holds edge rows 4000 t … 4000 t + 3999. At a point the body reads the rows'
  eight radial basis values and their gathered neighbour features, and the whole of both weights and both bias rows, and
  stores, at row p and channel q,
      neighbour (p, q) · ( Σ_k silu ( Σ_j rbf (p, j) · W1 (j, k) + b1 k ) · W2 (k, q) + b2 q ),   silu x = x · logistic x.
  Three steps: the stored payload at an index is that formula of the blocks (each product into a zero accumulator is the
  plain sum over its one contracted axis; a narrowing of the format and a cast of a shape to itself change nothing over the
  extended reals; a bias row broadcast over the rows reads the row); so what point t writes back is row block t of the
  message function of the whole arrays, since the row blocks move with t and the weights and biases stay whole; and row r
  of the output lies in the block of point r / 4000, so the blocks cover the array and the array is the message function.
-/
import proofs.«403967_j7275674599677_2_alg».proof.Proof.Gen.KernelIdeal.Frame
import proofs.«403967_j7275674599677_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two contractions of the radial network, read at an index

Both products contract the left operand's second axis with the right operand's first: at output index (p, q) and
contraction coordinate k the operands are read at (p, k) and (k, q). -/

theorem lhs_rbfW1_0 (i : S4000x128.Idx) (r : dot_S4000x8_S8x128_S4000x128_1_0_0_1_n_n.contr.Idx) :
    (dot_S4000x8_S8x128_S4000x128_1_0_0_1_n_n.lhsIdx i r 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem lhs_rbfW1_1 (i : S4000x128.Idx) (r : dot_S4000x8_S8x128_S4000x128_1_0_0_1_n_n.contr.Idx) :
    (dot_S4000x8_S8x128_S4000x128_1_0_0_1_n_n.lhsIdx i r 1).val = (r ⟨0, by decide⟩).val :=
  dot_S4000x8_S8x128_S4000x128_1_0_0_1_n_n.lhsIdx_val_of_single rfl i r
theorem rhs_rbfW1_0 (i : S4000x128.Idx) (r : dot_S4000x8_S8x128_S4000x128_1_0_0_1_n_n.contr.Idx) :
    (dot_S4000x8_S8x128_S4000x128_1_0_0_1_n_n.rhsIdx i r 0).val = (r ⟨0, by decide⟩).val :=
  dot_S4000x8_S8x128_S4000x128_1_0_0_1_n_n.rhsIdx_val_of_single rfl i r
theorem rhs_rbfW1_1 (i : S4000x128.Idx) (r : dot_S4000x8_S8x128_S4000x128_1_0_0_1_n_n.contr.Idx) :
    (dot_S4000x8_S8x128_S4000x128_1_0_0_1_n_n.rhsIdx i r 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-- The first product into the zero accumulator: row p of the radial basis block against column q of the first weight. -/
theorem rbfW1_apply (a : FVec Ideal S4000x8 .bf16) (b : FVec Ideal S8x128 .bf16) (p : Fin 4000) (q : Fin 128) :
    matmul dot_S4000x8_S8x128_S4000x128_1_0_0_1_n_n none a b (constant (F := Ideal) S4000x128 .f32 0x00000000#32) (ix2 p q)
      = ∑ j : Fin 8, a (ix2 p j) * b (ix2 j q) := by
  simp only [matmul]
  rw [Ideal.matmul_constant_zero_apply, ← Equiv.sum_comp (ValueIdx.contrEquiv1 dot_S4000x8_S8x128_S4000x128_1_0_0_1_n_n 8 rfl rfl).symm]
  refine Finset.sum_congr rfl fun k _ => ?_
  have hk := ValueIdx.contrEquiv1_symm_val dot_S4000x8_S8x128_S4000x128_1_0_0_1_n_n 8 rfl rfl k
  have el : dot_S4000x8_S8x128_S4000x128_1_0_0_1_n_n.lhsIdx (ix2 p q) ((ValueIdx.contrEquiv1 dot_S4000x8_S8x128_S4000x128_1_0_0_1_n_n 8 rfl rfl).symm k) = ix2 p k := funext fun x => Fin.ext (by
    match x with
    | ⟨0, _⟩ => exact lhs_rbfW1_0 _ _
    | ⟨1, _⟩ => exact (lhs_rbfW1_1 _ _).trans hk)
  have er : dot_S4000x8_S8x128_S4000x128_1_0_0_1_n_n.rhsIdx (ix2 p q) ((ValueIdx.contrEquiv1 dot_S4000x8_S8x128_S4000x128_1_0_0_1_n_n 8 rfl rfl).symm k) = ix2 k q := funext fun x => Fin.ext (by
    match x with
    | ⟨0, _⟩ => exact (rhs_rbfW1_0 _ _).trans hk
    | ⟨1, _⟩ => exact rhs_rbfW1_1 _ _)
  rw [el, er]

theorem lhs_hidW2_0 (i : S4000x128.Idx) (r : dot_S4000x128_S128x128_S4000x128_1_0_0_1_n_n.contr.Idx) :
    (dot_S4000x128_S128x128_S4000x128_1_0_0_1_n_n.lhsIdx i r 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_hidW2_1 (i : S4000x128.Idx) (r : dot_S4000x128_S128x128_S4000x128_1_0_0_1_n_n.contr.Idx) :
    (dot_S4000x128_S128x128_S4000x128_1_0_0_1_n_n.lhsIdx i r 1).val = (r ⟨0, by decide⟩).val :=
  dot_S4000x128_S128x128_S4000x128_1_0_0_1_n_n.lhsIdx_val_of_single rfl i r
theorem rhs_hidW2_0 (i : S4000x128.Idx) (r : dot_S4000x128_S128x128_S4000x128_1_0_0_1_n_n.contr.Idx) :
    (dot_S4000x128_S128x128_S4000x128_1_0_0_1_n_n.rhsIdx i r 0).val = (r ⟨0, by decide⟩).val :=
  dot_S4000x128_S128x128_S4000x128_1_0_0_1_n_n.rhsIdx_val_of_single rfl i r
theorem rhs_hidW2_1 (i : S4000x128.Idx) (r : dot_S4000x128_S128x128_S4000x128_1_0_0_1_n_n.contr.Idx) :
    (dot_S4000x128_S128x128_S4000x128_1_0_0_1_n_n.rhsIdx i r 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The second product into the zero accumulator: row p of the hidden activations against column q of the second weight. -/
theorem hidW2_apply (a : FVec Ideal S4000x128 .bf16) (b : FVec Ideal S128x128 .bf16) (p : Fin 4000) (q : Fin 128) :
    matmul dot_S4000x128_S128x128_S4000x128_1_0_0_1_n_n none a b (constant (F := Ideal) S4000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun x => Fin.ext (by
    match x with
    | ⟨0, _⟩ => exact lhs_hidW2_0 _ _
    | ⟨1, _⟩ => exact (lhs_hidW2_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun x => Fin.ext (by
    match x with
    | ⟨0, _⟩ => exact (rhs_hidW2_0 _ _).trans hk
    | ⟨1, _⟩ => exact rhs_hidW2_1 _ _)
  rw [el, er]

/-! ## The body's payload at an index of its block -/

/-- The hidden pre-activation of a block at row p, hidden channel k: the row's radial basis values through the first
    affine map. -/
def preact (x0 : Vec Ideal S4000x8 .f32) (x2 : Vec Ideal S8x128 .f32) (x3 : Vec Ideal S1x128 .f32) (p : Fin 4000) (k : Fin 128) : EReal :=
  (∑ j : Fin 8, x0 (ix2 p j) * x2 (ix2 j k)) + x3 (ix2 (0 : Fin 1) k)

/-- The payload the body stores, at row p and channel q of the block: the neighbour feature times the radial network's
    output, the network being the first affine map, x times the logistic of x, and the second affine map. -/
theorem payload_apply (x0 : Vec Ideal S4000x8 .f32) (x1 : Vec Ideal S4000x128 .f32) (x2 : Vec Ideal S8x128 .f32)
    (x3 : Vec Ideal S1x128 .f32) (x4 : Vec Ideal S128x128 .f32) (x5 : Vec Ideal S1x128 .f32) (p : Fin 4000) (q : Fin 128) :
    k0_pay1 (F := Ideal) x0 x2 x3 x4 x5 x1 (ix2 p q)
      = x1 (ix2 p q) * ((∑ k : Fin 128, (preact x0 x2 x3 p k * Ideal.logistic (preact x0 x2 x3 p k)) * x4 (ix2 k q))
          + x5 (ix2 (0 : Fin 1) q)) := by
  unfold k0_pay1
  simp only [shapeCast_self]
  rw [mulf_apply, addf_apply, hidW2_apply, broadcastTo_1b_ab_apply]
  refine congrArg (x1 (ix2 p q) * ·) (congrArg (· + x5 (ix2 (0 : Fin 1) q)) (Finset.sum_congr rfl fun k _ => ?_))
  rw [truncf_apply, truncf_apply, mulf_apply]
  show (addf _ _ (ix2 p k)) * FloatOps.logistic (addf _ _ (ix2 p k)) * _ = _
  rw [addf_apply, rbfW1_apply, broadcastTo_1b_ab_apply, Ideal.logistic_def]
  rfl

/-! ## What a grid point writes back, and the array after the region -/

theorem edge_zero_offsets : (![0, 0] : Fin 2 → Nat) = fun _ => 0 := funext fun a => by fin_cases a <;> rfl

/-- The windows' index maps over the grid: the radial basis block, the neighbour block and the output block of point t
    are row block t of their arrays; the weights and biases are whole. -/
theorem edge_block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The stored payload at (p, q) is the message of edge e at channel q, when row p of the radial basis block is row e of
    the radial basis array and the neighbour block's entry (p, q) is the neighbour array's entry (e, q). -/
theorem payload_eq_message (rbf : FVec Ideal S1600000x8 .f32) (nodeJ : FVec Ideal S1600000x128 .f32)
    (w1 : Vec Ideal S8x128 .f32) (b1 : Vec Ideal S1x128 .f32) (w2 : Vec Ideal S128x128 .f32) (b2 : Vec Ideal S1x128 .f32)
    (x0 : Vec Ideal S4000x8 .f32) (x1 : Vec Ideal S4000x128 .f32) (e : Fin 1600000) (p : Fin 4000) (q : Fin 128)
    (h0 : ∀ j : Fin 8, x0 (ix2 p j) = rbf (ix2 e j)) (h1 : x1 (ix2 p q) = nodeJ (ix2 e q)) :
    k0_pay1 (F := Ideal) x0 w1 b1 w2 b2 x1 (ix2 p q) = Cert.Spec.messages rbf nodeJ w1 b1 w2 b2 (ix2 e q) := by
  rw [payload_apply]
  unfold Cert.Spec.messages Cert.Spec.weight Cert.Spec.hidden preact
  simp only [h0, h1]

section Blocks

variable (V : (c : Dev nD) → (b : Ref sig .tc) → Buf (Elt Ideal) ((c : Thread nD τ).loc b))

/-- Row p of the radial basis block at point t is row 4000 t + p of the radial basis array. -/
theorem rbf_block (c : Dev nD) (t : Fin cfg0.N) (p : Fin 4000) (j : Fin 8) (e : Fin 1600000) (he : e.val = 4000 * t.val + p.val) :
    (iblk0 V c 0 t : Vec Ideal S4000x8 .f32) (ix2 p j) = (V c main_arg2 : S1600000x8.Idx → EReal) (ix2 e j) := by
  obtain ⟨e0, e1, -⟩ := edge_block_index t
  show V c main_arg2 (((cfg0.win 0).blk t).view.emb (ix2 p j)) = _
  refine congrArg _ (funext fun a => Fin.ext ?_)
  match a with
  | ⟨0, _⟩ => show win0_0.index t (0 : Fin 2) * 4000 + 1 * p.val = e.val; omega
  | ⟨1, _⟩ => show win0_0.index t (1 : Fin 2) * 8 + 1 * j.val = j.val; omega

/-- Row p of the neighbour block at point t is row 4000 t + p of the gathered neighbour array. -/
theorem neighbour_block (c : Dev nD) (t : Fin cfg0.N) (p : Fin 4000) (q : Fin 128) (e : Fin 1600000) (he : e.val = 4000 * t.val + p.val) :
    (iblk0 V c 1 t : Vec Ideal S4000x128 .f32) (ix2 p q) = (V c main_v4 : S1600000x128.Idx → EReal) (ix2 e q) := by
  obtain ⟨-, -, e0, e1, -⟩ := edge_block_index t
  show V c main_v4 (((cfg0.win 1).blk t).view.emb (ix2 p q)) = _
  refine congrArg _ (funext fun a => Fin.ext ?_)
  match a with
  | ⟨0, _⟩ => show win0_1.index t (0 : Fin 2) * 4000 + 1 * p.val = e.val; omega
  | ⟨1, _⟩ => show win0_1.index t (1 : Fin 2) * 128 + 1 * q.val = q.val; omega

/-- The first weight's block at every point is the whole weight. -/
theorem w1_block (c : Dev nD) (t : Fin cfg0.N) : (iblk0 V c 2 t : Vec Ideal S8x128 .f32) = (V c main_arg4 : S8x128.Idx → EReal) := by
  obtain ⟨-, -, -, -, e0, e1, -⟩ := edge_block_index t
  funext y
  show V c main_arg4 (((cfg0.win 2).blk t).view.emb y) = V c main_arg4 y
  refine congrArg _ (funext fun a => Fin.ext ?_)
  match a with
  | ⟨0, _⟩ => show win0_2.index t (0 : Fin 2) * 8 + 1 * (y 0).val = (y 0).val; omega
  | ⟨1, _⟩ => show win0_2.index t (1 : Fin 2) * 128 + 1 * (y 1).val = (y 1).val; omega

/-- The first bias row's block at every point is the whole row. -/
theorem b1_block (c : Dev nD) (t : Fin cfg0.N) : (iblk0 V c 3 t : Vec Ideal S1x128 .f32) = (V c main_v5 : S1x128.Idx → EReal) := by
  obtain ⟨-, -, -, -, -, -, e0, e1, -⟩ := edge_block_index t
  funext y
  show V c main_v5 (((cfg0.win 3).blk t).view.emb y) = V c main_v5 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight's block at every point is the whole weight. -/
theorem w2_block (c : Dev nD) (t : Fin cfg0.N) : (iblk0 V c 4 t : Vec Ideal S128x128 .f32) = (V c main_arg6 : S128x128.Idx → EReal) := by
  obtain ⟨-, -, -, -, -, -, -, -, e0, e1, -⟩ := edge_block_index t
  funext y
  show V c main_arg6 (((cfg0.win 4).blk t).view.emb y) = V c main_arg6 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias row's block at every point is the whole row. -/
theorem b2_block (c : Dev nD) (t : Fin cfg0.N) : (iblk0 V c 5 t : Vec Ideal S1x128 .f32) = (V c main_v6 : S1x128.Idx → EReal) := by
  obtain ⟨-, -, -, -, -, -, -, -, -, -, e0, e1, -⟩ := edge_block_index t
  funext y
  show V c main_v6 (((cfg0.win 5).blk t).view.emb y) = V c main_v6 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- What point t writes back is row block t of the message function of the arrays the region finds. -/
theorem edge_flushed_eq (c : Dev nD) (t : Fin cfg0.N) :
    (dat0 (F := Ideal) V c).flushed 6 t = ((cfg0.win 6).blk t).view.read (Elt Ideal)
      (Cert.Spec.messages (V c main_arg2) (V c main_v4) (V c main_arg4) (V c main_v5) (V c main_arg6) (V c main_v6)) := by
  show (cfg0.win 6).cut (grid0.coords t) ((dat0 V c).after 6 t) = _
  rw [after0_6]
  unfold out0_6
  rw [View.canon_unit_zero edge_zero_offsets]
  simp only [View.ld_unit_zero (S := S4000x8) edge_zero_offsets, View.ld_unit_zero (S := S4000x128) edge_zero_offsets,
    View.ld_unit_zero (S := S8x128) edge_zero_offsets, View.ld_unit_zero (S := S1x128) edge_zero_offsets,
    View.ld_unit_zero (S := S128x128) edge_zero_offsets]
  rw [w1_block, b1_block, w2_block, b2_block]
  funext y
  have hp : (y 0).val < 4000 := (y 0).isLt
  have hq : (y 1).val < 128 := (y 1).isLt
  have ht : t.val < 400 := lt_of_lt_of_eq t.isLt N_0
  obtain ⟨-, -, -, -, -, -, -, -, -, -, -, -, e0, e1⟩ := edge_block_index t
  have hy : (win0 6).xinj (grid0.coords t) y = ix2 (⟨(y 0).val, hp⟩ : Fin 4000) (⟨(y 1).val, hq⟩ : Fin 128) :=
    funext fun a => Fin.ext (by match a with | ⟨0, _⟩ => rfl | ⟨1, _⟩ => rfl)
  have hemb : ((cfg0.win 6).blk t).view.emb y
      = ix2 (⟨4000 * t.val + (y 0).val, by omega⟩ : Fin 1600000) (⟨(y 1).val, hq⟩ : Fin 128) :=
    funext fun a => Fin.ext (by
      match a with
      | ⟨0, _⟩ => show win0_6.index t (0 : Fin 2) * 4000 + 1 * (y 0).val = 4000 * t.val + (y 0).val; omega
      | ⟨1, _⟩ => show win0_6.index t (1 : Fin 2) * 128 + 1 * (y 1).val = (y 1).val; omega)
  show k0_pay1 (F := Ideal) _ _ _ _ _ _ ((win0 6).xinj (grid0.coords t) y)
    = Cert.Spec.messages (V c main_arg2) (V c main_v4) (V c main_arg4) (V c main_v5) (V c main_arg6) (V c main_v6)
        (((cfg0.win 6).blk t).view.emb y)
  rw [hy, hemb]
  exact payload_eq_message _ _ _ _ _ _ _ _ _ _ _ (fun j => rbf_block V c t _ j _ rfl) (neighbour_block V c t _ _ _ rfl)

/-- Every entry of the output array lies in some point's block: row r in the block of point r / 4000. -/
theorem edge_covered (i : S1600000x128.Idx) :
    ∃ t : Fin cfg0.N, (cfg0.win 6).flush t = true ∧ i ∈ ((cfg0.win 6).blk t).view.set := by
  have hi0 : (i 0).val < 1600000 := (i 0).isLt
  have hi1 : (i 1).val < 128 := (i 1).isLt
  have hN : cfg0.N = 400 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := edge_block_index t
  refine ⟨t, flush0_6 t, ?_⟩
  show i ∈ ((View.whole main_v7).slice (win0_6.rect t)).set
  rw [View.set_slice_whole, Rect.mem_set_unit]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

end Blocks

/-- The edge region's output array after its run is the message function of the arrays the region finds. -/
theorem edge_array (V : (c : Dev nD) → (b : Ref sig .tc) → Buf (Elt Ideal) ((c : Thread nD τ).loc b)) (c : Dev nD) :
    (dat0 (F := Ideal) V c).arrAt 6 cfg0.N
      = Cert.Spec.messages (V c main_arg2) (V c main_v4) (V c main_arg4) (V c main_v5) (V c main_arg6) (V c main_v6) :=
  (dat0 (F := Ideal) V c).arrAt_eq_of_cover 6 _ (fun t _ => edge_flushed_eq V c t) edge_covered

end Cert.KernelIdeal.Edge

end
-- ==== Proof.NodeArray.lean ====
import proofs.«403967_j7275674599677_2_alg».proof.Proof.Gen.KernelIdeal.Frame
import proofs.«403967_j7275674599677_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Node

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The block product read at an index -/

/-- The left operand's row coordinate is the output's row. -/
theorem lhs_rows_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the summation index. -/
theorem lhs_rows_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the summation index. -/
theorem rhs_rows_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs_rows_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A [2000,128] × [128,128] product into the zero accumulator, at row `p` and column `q`: the sum over the shared axis. -/
theorem blockProduct_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_rows_0 _ _
    | ⟨1, _⟩ => exact (lhs_rows_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_rows_0 _ _).trans hk
    | ⟨1, _⟩ => exact rhs_rows_1 _ _)
  rw [el, er]

/-! ## The body's payload at an index of its block -/

/-- The node body's stored value at row `p`, column `q` of its block: the self-interaction of the feature block, projected by
    the upper half, plus the aggregate block projected by the lower half, plus the projection's bias. -/
theorem payload_apply (x0 x1 : Vec Ideal S2000x128 .f32) (x2 x4 x5 : Vec Ideal S128x128 .f32) (x3 x6 : Vec Ideal S1x128 .f32)
    (p : Fin 2000) (q : Fin 128) :
    k1_pay1 (F := Ideal) x0 x2 x3 x4 x1 x5 x6 (ix2 p q)
      = ((∑ k : Fin 128, ((∑ j : Fin 128, x0 (ix2 p j) * x2 (ix2 j k)) + x3 (ix2 0 k)) * x4 (ix2 k q))
          + (∑ k : Fin 128, x1 (ix2 p k) * x5 (ix2 k q))) + x6 (ix2 0 q) := by
  unfold k1_pay1
  simp only [shapeCast_self]
  rw [addf_apply, addf_apply, blockProduct_apply, blockProduct_apply, broadcastTo_1b_ab_apply]
  simp only [truncf_apply, addf_apply, blockProduct_apply, broadcastTo_1b_ab_apply]

/-- The stored value at an index `y` of the block is the node-stage function at an array index `i`, whenever the two row
    blocks hold the arrays' rows at `i`'s row, the whole-array windows hold their arrays, and `y` and `i` name the same column. -/
theorem payload_eq_nodeOut (x0 x1 : Vec Ideal S2000x128 .f32) (x2 x4 x5 : Vec Ideal S128x128 .f32) (x3 x6 : Vec Ideal S1x128 .f32)
    (nf agg : FVec Ideal S100000x128 .f32) (wself wtop wbot : FVec Ideal S128x128 .f32) (bself bcat : FVec Ideal S1x128 .f32)
    (y : S2000x128.Idx) (i : S100000x128.Idx) (p : Fin 2000) (q : Fin 128) (r : Fin 100000)
    (hp : (y 0).val = p.val) (hq : (y 1).val = q.val) (hr : (i 0).val = r.val) (hq' : (i 1).val = q.val)
    (h0 : ∀ j : Fin 128, x0 (ix2 p j) = nf (ix2 r j))
    (h1 : ∀ k : Fin 128, x1 (ix2 p k) = agg (ix2 r k))
    (h2 : x2 = wself) (h3 : x3 = bself) (h4 : x4 = wtop) (h5 : x5 = wbot) (h6 : x6 = bcat) :
    k1_pay1 (F := Ideal) x0 x2 x3 x4 x1 x5 x6 y = Cert.Spec.nodeOut nf agg wself bself wtop wbot bcat i := by
  subst h2 h3 h4 h5 h6
  have hy : y = ix2 p q := funext fun a => Fin.ext (by
    match a with
    | ⟨0, _⟩ => exact hp
    | ⟨1, _⟩ => exact hq)
  have hi : i = ix2 r q := funext fun a => Fin.ext (by
    match a with
    | ⟨0, _⟩ => exact hr
    | ⟨1, _⟩ => exact hq')
  rw [hy, hi, payload_apply]
  show _ = ((∑ k : Fin 128, ((∑ j : Fin 128, nf (ix2 r j) * x2 (ix2 j k)) + x3 (ix2 0 k)) * x4 (ix2 k q))
      + (∑ k : Fin 128, agg (ix2 r k) * x5 (ix2 k q))) + x6 (ix2 0 q)
  simp only [h0, h1]

/-! ## What a grid point writes back -/

/-- The body's loads and its store start at the origin of their buffers. -/
theorem zeroOffsets : (![0, 0] : Fin 2 → Nat) = fun _ => 0 := funext fun a => by fin_cases a <;> rfl

/-- The windows' block indices, decided over the 50 grid points: the two row-block inputs move with the output, whose row
    block is the point's number; every other window stays at its one block. -/
theorem index_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Point `t` writes back block `t` of the node-stage function of the arrays the region finds. -/
theorem flushed_eq (V : (c : Dev nD) → (b : Ref sig .tc) → Buf (Elt Ideal) ((c : Thread nD τ).loc b)) (c : Dev nD) (t : Fin cfg1.N) :
    (dat1 (F := Ideal) V c).flushed 7 t = ((cfg1.win 7).blk t).view.read (Elt Ideal)
      (Cert.Spec.nodeOut (V c main_arg0) (V c main_v10) (V c main_arg8) (V c main_v11) (V c main_v13) (V c main_v14) (V c main_v12)) := by
  show (cfg1.win 7).cut (grid1.coords t) ((dat1 V c).after 7 t) = _
  rw [after1_7]
  unfold out1_7
  rw [View.canon_unit_zero zeroOffsets]
  simp only [View.ld_unit_zero (S := S2000x128) zeroOffsets, View.ld_unit_zero (S := S128x128) zeroOffsets, View.ld_unit_zero (S := S1x128) zeroOffsets]
  obtain ⟨e00, e01, e10, e11, e20, e21, e30, e31, e40, e41, e50, e51, e60, e61, e70, e71⟩ := index_facts t
  funext j
  show k1_pay1 (F := Ideal) (iblk1 V c 0 t) (iblk1 V c 2 t) (iblk1 V c 3 t) (iblk1 V c 4 t) (iblk1 V c 1 t) (iblk1 V c 5 t) (iblk1 V c 6 t) j
    = Cert.Spec.nodeOut (V c main_arg0) (V c main_v10) (V c main_arg8) (V c main_v11) (V c main_v13) (V c main_v14) (V c main_v12) (((cfg1.win 7).blk t).view.emb j)
  refine payload_eq_nodeOut _ _ _ _ _ _ _ _ _ _ _ _ _ _ j (((cfg1.win 7).blk t).view.emb j) (j 0) (j 1) ((((cfg1.win 7).blk t).view.emb j) 0) rfl rfl rfl ?_ ?_ ?_ ?_ ?_ ?_ ?_ ?_
  · show win1_7.index t (1 : Fin 2) * 128 + 1 * (j 1).val = (j 1).val
    omega
  · intro k
    show V c main_arg0 (((cfg1.win 0).blk t).view.emb (ix2 (j 0) k : S2000x128.Idx)) = V c main_arg0 (ix2 ((((cfg1.win 7).blk t).view.emb j) 0) k : S100000x128.Idx)
    refine congrArg (V c main_arg0) (funext fun a => Fin.ext ?_)
    match a with
    | ⟨0, _⟩ => show win1_0.index t (0 : Fin 2) * 2000 + 1 * (j 0).val = win1_7.index t (0 : Fin 2) * 2000 + 1 * (j 0).val; omega
    | ⟨1, _⟩ => show win1_0.index t (1 : Fin 2) * 128 + 1 * k.val = k.val; omega
  · intro k
    show V c main_v10 (((cfg1.win 1).blk t).view.emb (ix2 (j 0) k : S2000x128.Idx)) = V c main_v10 (ix2 ((((cfg1.win 7).blk t).view.emb j) 0) k : S100000x128.Idx)
    refine congrArg (V c main_v10) (funext fun a => Fin.ext ?_)
    match a with
    | ⟨0, _⟩ => show win1_1.index t (0 : Fin 2) * 2000 + 1 * (j 0).val = win1_7.index t (0 : Fin 2) * 2000 + 1 * (j 0).val; omega
    | ⟨1, _⟩ => show win1_1.index t (1 : Fin 2) * 128 + 1 * k.val = k.val; omega
  · funext y
    show V c main_arg8 (((cfg1.win 2).blk t).view.emb y) = V c main_arg8 y
    refine congrArg (V c main_arg8) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v11 (((cfg1.win 3).blk t).view.emb y) = V c main_v11 y
    refine congrArg (V c main_v11) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_v13 (((cfg1.win 4).blk t).view.emb y) = V c main_v13 y
    refine congrArg (V c main_v13) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v14 (((cfg1.win 5).blk t).view.emb y) = V c main_v14 y
    refine congrArg (V c main_v14) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  · funext y
    show V c main_v12 (((cfg1.win 6).blk t).view.emb y) = V c main_v12 y
    refine congrArg (V c main_v12) (funext fun a => Fin.ext ?_)
    match a with
    | ⟨0, _⟩ => show win1_6.index t (0 : Fin 2) * 1 + 1 * (y 0).val = (y 0).val; omega
    | ⟨1, _⟩ => show win1_6.index t (1 : Fin 2) * 128 + 1 * (y 1).val = (y 1).val; omega

/-! ## The blocks cover the array -/

/-- An index of the output array is in point `t`'s block iff each coordinate is in the block's range on its axis. -/
theorem mem_block (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v15).slice (win1_7.rect t)).set ↔ _
  rw [View.set_slice_whole, Rect.mem_set_unit]
  exact Iff.rfl

/-- Every index of the output array lies in the block of the point its row falls to: row `r` in that of point `r / 2000`. -/
theorem covered (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by show (i 0).val / 2000 < 50; omega⟩, rfl⟩
  obtain ⟨-, -, -, -, -, -, -, -, -, -, -, -, -, -, e70, e71⟩ := index_facts t
  refine ⟨t, flush1_7 t, ?_⟩
  rw [mem_block]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- The node region's output array after its run is the node-stage function of the arrays the region finds. -/
theorem node_array (V : (c : Dev nD) → (b : Ref sig .tc) → Buf (Elt Ideal) ((c : Thread nD τ).loc b)) (c : Dev nD) :
    (dat1 (F := Ideal) V c).arrAt 7 cfg1.N
      = Cert.Spec.nodeOut (V c main_arg0) (V c main_v10) (V c main_arg8) (V c main_v11) (V c main_v13) (V c main_v14) (V c main_v12) :=
  (dat1 (F := Ideal) V c).arrAt_eq_of_cover 7 _ (fun t _ => flushed_eq V c t) covered

end Cert.KernelIdeal.Node

end
-- ==== Proof.LibHostLine.lean ====
/- A straight line of host operations run against a list of known buffer contents.

   `Sat V L`: the valuation `V` holds every buffer listed in `L` at the contents listed beside it. Each builder of
   Lib/StableHlo.lean has a step lemma here: when `L` lists the operation's operands, and no listed buffer is the
   operation's result buffer, the valuation after the operation satisfies `L` extended by the result buffer at the
   operation's function of the operands' listed contents. Running the steps down a literal list of operations
   (`StableHlo.after`) therefore never composes the functions: every listed value is a name, and each step checks
   one defining equation. The goals have the shape `∀ V, Sat V L → Sat (after ops V) Lout`; a step lemma peels the
   first operation of `ops`, and `done` closes the empty line by picking `Lout` out of `L` by position. -/
import Idealize.ShloMosaic.Lib.StableHlo.Run
import Idealize.ShloMosaic.Lib.Pipeline.Frame

namespace HostLine

open Idealize.ShloMosaic Idealize.ShloMosaic.StableHlo Idealize.SL.Sem

variable {τ : Topo} {sig : RefSig} {Val : EltTy → Type}

/-- A TensorCore buffer together with contents of its type. -/
abbrev Fact (sig : RefSig) (Val : EltTy → Type) : Type := (b : Ref sig .tc) × b.ty.Contents Val

/-- The valuation holds every listed buffer at its listed contents. -/
def Sat (V : Valuation τ sig Val) (L : List (Fact sig Val)) : Prop :=
  ∀ p ∈ L, V (Proc.devRef (τ := τ) .tc p.1) = p.2

theorem Sat.nil (V : Valuation τ sig Val) : Sat V [] := fun _ hp => nomatch hp

theorem Sat.cons {V : Valuation τ sig Val} {L : List (Fact sig Val)} {b : Ref sig .tc} {v : b.ty.Contents Val}
    (hb : V (Proc.devRef (τ := τ) .tc b) = v) (h : Sat V L) : Sat V (⟨b, v⟩ :: L) := by
  intro p hp
  rcases List.mem_cons.1 hp with rfl | hp
  · exact hb
  · exact h p hp

/-- Reading a listed buffer by its position in the list. -/
theorem Sat.get {V : Valuation τ sig Val} {L : List (Fact sig Val)} (h : Sat V L) (i : Nat) {b : Ref sig .tc}
    {v : b.ty.Contents Val} (hi : L[i]? = some ⟨b, v⟩) : V (Proc.devRef (τ := τ) .tc b) = v :=
  h ⟨b, v⟩ (List.mem_of_getElem? hi)

/-- The empty line: what is asked for is picked out of what is known, by position. -/
theorem done {L Lout : List (Fact sig Val)} (idx : List Nat) (h : idx.filterMap (fun i => L[i]?) = Lout) :
    ∀ V : Valuation τ sig Val, Sat V L → Sat (after [] V) Lout := by
  intro V hV p hp
  subst h
  obtain ⟨i, _, hi⟩ := List.mem_filterMap.1 hp
  exact hV p (List.mem_of_getElem? hi)

/-- One operation, whatever its builder: its result buffer `y` is new to the list, it leaves `y` at `vy` from any
    valuation that satisfies the list, and it leaves every other TensorCore buffer alone. -/
theorem step {op : HloOp τ sig Val} {y : Ref sig .tc} {L Lout : List (Fact sig Val)} {rest : List (HloOp τ sig Val)}
    (vy : y.ty.Contents Val)
    (hres : ∀ V : Valuation τ sig Val, Sat V L → op.result V (Proc.devRef .tc y) = vy)
    (hne : ∀ (V : Valuation τ sig Val) (r : Ref sig .tc), r ≠ y → op.result V (Proc.devRef .tc r) = V (Proc.devRef .tc r))
    (hfr : (L.all fun p => decide (p.1 ≠ y)) = true)
    (k : ∀ V : Valuation τ sig Val, Sat V (⟨y, vy⟩ :: L) → Sat (after rest V) Lout) :
    ∀ V : Valuation τ sig Val, Sat V L → Sat (after (op :: rest) V) Lout := by
  intro V h
  rw [after_cons]
  refine k _ (Sat.cons (hres V h) ?_)
  intro p hp
  rw [hne V p.1 (of_decide_eq_true (List.all_eq_true.1 hfr p hp))]
  exact h p hp

section Builders

variable {L Lout : List (Fact sig Val)} {rest : List (HloOp τ sig Val)}

theorem step_nullary {y : Ref sig .tc} {v : y.ty.Contents Val} {hy}
    (vy : y.ty.Contents Val) (hv : vy = v) (hfr : (L.all fun p => decide (p.1 ≠ y)) = true)
    (k : ∀ V : Valuation τ sig Val, Sat V (⟨y, vy⟩ :: L) → Sat (after rest V) Lout) :
    ∀ V : Valuation τ sig Val, Sat V L → Sat (after (nullary y v hy :: rest) V) Lout :=
  step vy (fun V _ => (nullary_result y v hy V).trans hv.symm) (fun V _ hr => nullary_result_ne y v hy V hr) hfr k

theorem step_unary {x y : Ref sig .tc} {f : x.ty.Contents Val → y.ty.Contents Val} {hx hy}
    (i : Nat) (vx : x.ty.Contents Val) (vy : y.ty.Contents Val) (hi : L[i]? = some ⟨x, vx⟩) (hv : vy = f vx)
    (hfr : (L.all fun p => decide (p.1 ≠ y)) = true)
    (k : ∀ V : Valuation τ sig Val, Sat V (⟨y, vy⟩ :: L) → Sat (after rest V) Lout) :
    ∀ V : Valuation τ sig Val, Sat V L → Sat (after (unary x y f hx hy :: rest) V) Lout :=
  step vy (fun V h => by rw [unary_result, h.get i hi, hv]) (fun V _ hr => unary_result_ne x y f hx hy V hr) hfr k

theorem step_binary {a b y : Ref sig .tc} {f : a.ty.Contents Val → b.ty.Contents Val → y.ty.Contents Val} {ha hb hy}
    (i j : Nat) (va : a.ty.Contents Val) (vb : b.ty.Contents Val) (vy : y.ty.Contents Val)
    (hi : L[i]? = some ⟨a, va⟩) (hj : L[j]? = some ⟨b, vb⟩) (hv : vy = f va vb)
    (hfr : (L.all fun p => decide (p.1 ≠ y)) = true)
    (k : ∀ V : Valuation τ sig Val, Sat V (⟨y, vy⟩ :: L) → Sat (after rest V) Lout) :
    ∀ V : Valuation τ sig Val, Sat V L → Sat (after (binary a b y f ha hb hy :: rest) V) Lout :=
  step vy (fun V h => by rw [binary_result, h.get i hi, h.get j hj, hv])
    (fun V _ hr => binary_result_ne a b y f ha hb hy V hr) hfr k

theorem step_reshape {x y : Ref sig .tc} {he : x.ty.elt = y.ty.elt} {hn : x.ty.shape.ShapeCasts y.ty.shape} {hx hy}
    (i : Nat) (vx : x.ty.Contents Val) (vy : y.ty.Contents Val) (hi : L[i]? = some ⟨x, vx⟩)
    (hv : vy = fun i => he ▸ shapeCast y.ty.shape vx hn i)
    (hfr : (L.all fun p => decide (p.1 ≠ y)) = true)
    (k : ∀ V : Valuation τ sig Val, Sat V (⟨y, vy⟩ :: L) → Sat (after rest V) Lout) :
    ∀ V : Valuation τ sig Val, Sat V L → Sat (after (reshape x y he hn hx hy :: rest) V) Lout :=
  step vy (fun V h => by rw [reshape_result, h.get i hi, hv])
    (fun V _ hr => reshape_result_ne x y he hn hx hy V hr) hfr k

/-- An operation of any number of operands: its value is read under an arbitrary valuation that satisfies the list. -/
theorem step_nary {n : Nat} {xs : Fin n → Ref sig .tc} {y : Ref sig .tc}
    {f : ((k : Fin n) → (xs k).ty.Contents Val) → y.ty.Contents Val} {hxs hy}
    (vy : y.ty.Contents Val)
    (hv : ∀ V : Valuation τ sig Val, Sat V L → f (fun k => V (Proc.devRef .tc (xs k))) = vy)
    (hfr : (L.all fun p => decide (p.1 ≠ y)) = true)
    (k : ∀ V : Valuation τ sig Val, Sat V (⟨y, vy⟩ :: L) → Sat (after rest V) Lout) :
    ∀ V : Valuation τ sig Val, Sat V L → Sat (after (nary xs y f hxs hy :: rest) V) Lout :=
  step vy (fun V h => (nary_result xs y f hxs hy V).trans (hv V h))
    (fun V _ hr => nary_result_ne (y := y) xs f hxs hy V hr) hfr k

end Builders

end HostLine
-- ==== Proof.LibHostLine3.lean ====
/- Steps of a host line (LibHostLine.lean) for the builders that file has no step for: an operation of three operands
   (`ternary`: a select, a scatter-add), and the typed-reference forms (`TRef.nullary`, `TRef.unary`, `TRef.binary`,
   `TRef.ternary`) in which a module-local function's body is stated, and which a call of that function therefore leaves
   in its caller's line once the body is unfolded at the call site; and the join of two stretches of a line (`line_append`).

   A typed reference `x : TRef sig T` carries its buffer `x.ref` and the equation `x.ty_eq : x.ref.ty = T`; its operation
   reads and writes the buffers through the transports `x.ofBuf` / `x.toBuf` along that equation. The steps below state
   the listed contents of an operand as `x.toBuf vx` for a `vx` at the value's own type `T`, and the result as
   `y.toBuf (f vx)`: the two transports of an operand cancel (`ofBuf_toBuf`), whatever the equation is. At a literal
   reference, whose equation is `rfl`, `x.toBuf vx` is `vx` by computation, so a use site lists plain contents. -/
import proofs.«403967_j7275674599677_2_alg».proof.Proof.LibHostLine

namespace HostLine

open Idealize.ShloMosaic Idealize.ShloMosaic.StableHlo Idealize.SL.Sem

variable {τ : Topo} {sig : RefSig} {Val : EltTy → Type}

/-- Transporting contents to a typed reference's buffer type and back is the identity. -/
theorem ofBuf_toBuf {T : BufTy} (x : TRef sig T) (v : T.Contents Val) : x.ofBuf (x.toBuf v) = v := by
  obtain ⟨ref, ty_eq, on_device, unscoped⟩ := x
  subst ty_eq
  rfl

/-- Two stretches in a row: what the first ends holding is what the second starts from. -/
theorem line_append {l₁ l₂ : List (HloOp τ sig Val)} {L M N : List (Fact sig Val)}
    (h₁ : ∀ V : Valuation τ sig Val, Sat V L → Sat (after l₁ V) M)
    (h₂ : ∀ V : Valuation τ sig Val, Sat V M → Sat (after l₂ V) N) :
    ∀ V : Valuation τ sig Val, Sat V L → Sat (after (l₁ ++ l₂) V) N := fun V h => by
  rw [StableHlo.after_append]
  exact h₂ _ (h₁ V h)

section Builders

variable {L Lout : List (Fact sig Val)} {rest : List (HloOp τ sig Val)}

/-- An operation of three operands: the list holds each operand (by position), the result buffer is new to the list,
    and the listed result is the operation's function of the three listed contents. -/
theorem step_ternary {c a b y : Ref sig .tc}
    {f : c.ty.Contents Val → a.ty.Contents Val → b.ty.Contents Val → y.ty.Contents Val} {hc ha hb hy}
    (i j l : Nat) (vc : c.ty.Contents Val) (va : a.ty.Contents Val) (vb : b.ty.Contents Val) (vy : y.ty.Contents Val)
    (hi : L[i]? = some ⟨c, vc⟩) (hj : L[j]? = some ⟨a, va⟩) (hl : L[l]? = some ⟨b, vb⟩) (hv : vy = f vc va vb)
    (hfr : (L.all fun p => decide (p.1 ≠ y)) = true)
    (k : ∀ V : Valuation τ sig Val, Sat V (⟨y, vy⟩ :: L) → Sat (after rest V) Lout) :
    ∀ V : Valuation τ sig Val, Sat V L → Sat (after (ternary c a b y f hc ha hb hy :: rest) V) Lout :=
  step vy (fun V h => by rw [ternary_result, h.get i hi, h.get j hj, h.get l hl, hv])
    (fun V _ hr => ternary_result_ne (a := a) (b := b) (c := c) (y := y) f hc ha hb hy V hr) hfr k

variable {Tx Ta Tb Tc Ty : BufTy}

/-- A typed-reference operation of no operand. -/
theorem step_tnullary {y : TRef sig Ty} {v : Ty.Contents Val}
    (vy : y.ref.ty.Contents Val) (hv : vy = y.toBuf v) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.nullary y v :: rest) V) Lout :=
  step_nullary vy hv hfr k

/-- A typed-reference operation of one operand. -/
theorem step_tunary {x : TRef sig Tx} {y : TRef sig Ty} {f : Tx.Contents Val → Ty.Contents Val}
    (i : Nat) (vx : Tx.Contents Val) (vy : y.ref.ty.Contents Val) (hi : L[i]? = some ⟨x.ref, x.toBuf vx⟩)
    (hv : vy = y.toBuf (f vx)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.unary x y f :: rest) V) Lout :=
  step_unary i (x.toBuf vx) vy hi
    (hv.trans (congrArg (fun t => y.toBuf (f t)) (ofBuf_toBuf x vx).symm)) hfr k

/-- A typed-reference operation of two operands. -/
theorem step_tbinary {a : TRef sig Ta} {b : TRef sig Tb} {y : TRef sig Ty}
    {f : Ta.Contents Val → Tb.Contents Val → Ty.Contents Val}
    (i j : Nat) (va : Ta.Contents Val) (vb : Tb.Contents Val) (vy : y.ref.ty.Contents Val)
    (hi : L[i]? = some ⟨a.ref, a.toBuf va⟩) (hj : L[j]? = some ⟨b.ref, b.toBuf vb⟩)
    (hv : vy = y.toBuf (f va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.binary a b y f :: rest) V) Lout :=
  step_binary i j (a.toBuf va) (b.toBuf vb) vy hi hj
    (hv.trans (congrArg₂ (fun s t => y.toBuf (f s t)) (ofBuf_toBuf a va).symm (ofBuf_toBuf b vb).symm)) hfr k

/-- A typed-reference operation of three operands (a module-local `select`). -/
theorem step_tternary {c : TRef sig Tc} {a : TRef sig Ta} {b : TRef sig Tb} {y : TRef sig Ty}
    {f : Tc.Contents Val → Ta.Contents Val → Tb.Contents Val → Ty.Contents Val}
    (i j l : Nat) (vc : Tc.Contents Val) (va : Ta.Contents Val) (vb : Tb.Contents Val) (vy : y.ref.ty.Contents Val)
    (hi : L[i]? = some ⟨c.ref, c.toBuf vc⟩) (hj : L[j]? = some ⟨a.ref, a.toBuf va⟩)
    (hl : L[l]? = some ⟨b.ref, b.toBuf vb⟩)
    (hv : vy = y.toBuf (f vc va vb)) (hfr : (L.all fun p => decide (p.1 ≠ y.ref)) = true)
    (k : ∀ V : Valuation τ sig Val, Sat V (⟨y.ref, vy⟩ :: L) → Sat (after rest V) Lout) :
    ∀ V : Valuation τ sig Val, Sat V L → Sat (after (TRef.ternary c a b y f :: rest) V) Lout :=
  step_ternary i j l (c.toBuf vc) (a.toBuf va) (b.toBuf vb) vy hi hj hl
    (by rw [hv, ofBuf_toBuf, ofBuf_toBuf, ofBuf_toBuf]) hfr k

end Builders

end HostLine
-- ==== Proof.HostValues.lean ====
/-
  What the host operations around the two kernel regions leave in the arrays the regions read.

  Before the edge region: the column indices are wrapped (a negative index gets the table's length added), the
  neighbour features are gathered at the wrapped indices and every row whose wrapped index is outside the table is
  overwritten by the fill word; the two biases are reshaped to rows.  Between the regions: the messages are
  scatter-added into a zero array at the row indices, the remaining biases are reshaped to rows and the projection
  matrix is cut into its upper and lower half.
-/
import proofs.«403967_j7275674599677_2_alg».proof.Proof.Gen.KernelIdeal.Frame
import Idealize.ShloMosaic.Lib.StableHlo.Run
import proofs.«403967_j7275674599677_2_alg».proof.Proof.LibHostLine3

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F]

/-- Row `r` of the index pair array as a vector: `r = 0` the destination rows, `r = 1` the source columns. -/
def rowIdx (ei : IVec S2x1600000 32) : IVec S1600000 32 :=
  shapeCast S1600000 (extractStridedSlice S1x1600000 ![0, 0] ei slices_S2x1600000_S1x1600000_0_0) shapeCasts_S1x1600000_S1600000
def colIdx (ei : IVec S2x1600000 32) : IVec S1600000 32 :=
  shapeCast S1600000 (extractStridedSlice S1x1600000 ![1, 0] ei slices_S2x1600000_S1x1600000_1_0) shapeCasts_S1x1600000_S1600000

/-- The column indices with negative ones wrapped by the table's length, as a column of start indices. -/
def wrapCol (ei : IVec S2x1600000 32) : IVec S1600000x1 32 :=
  broadcastInDim S1600000x1 ![0] bcast_S1600000_S1600000x1_0
    (select (cmpi .slt (colIdx ei) (broadcastInDim S1600000 ![] bcast_S_S1600000 (constantI S_ 32 0#32)))
      (addi (colIdx ei) (broadcastInDim S1600000 ![] bcast_S_S1600000 (constantI S_ 32 100000#32))) (colIdx ei))

/-- Per edge and channel: is the wrapped column index inside the table, `0 ≤ · ≤ 99999`? -/
def inRange (ei : IVec S2x1600000 32) : IVec S1600000x128 1 :=
  broadcastInDim S1600000x128 ![0] bcast_S1600000_S1600000x128_0
    (Host.reduce IntOp.andi
      (andi (cmpi .sge (wrapCol ei) (broadcastInDim S1600000x1 ![] bcast_S_S1600000x1 (constantI S_ 32 0#32)))
        (cmpi .sle (wrapCol ei) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The kernel's neighbour features: the gather at the wrapped indices, rows out of range filled. -/
def takeFill (nf : FVec F S100000x128 .f32) (ei : IVec S2x1600000 32) : FVec F S1600000x128 .f32 :=
  select (inRange ei) (Host.gather gather_S100000x128_S1600000x1_S1600000x128_1_0_n_n_0_1_1128 nf (wrapCol ei))
    (broadcastInDim S1600000x128 ![] bcast_S_S1600000x128 (constant S_ .f32 0x7FC00000#32))

/-- The scatter-add of per-edge messages into a zero array at the destination rows. -/
def aggregate (ei : IVec S2x1600000 32) (msgs : FVec F S1600000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (rowIdx ei)) msgs

/-- Contents written through the typed reference of the take's result buffer are the contents themselves. -/
theorem toBuf_take (X : FVec F S1600000x128 .f32) :
    (TRef.of (T := ⟨S1600000x128, .f32⟩) (sig := sig) main_v4).toBuf (Val := Elt F) X = X := rfl

variable (m : (ℓ : Loc nD τ sig) → Buf (Elt F) ℓ) (ρ : Dev nD → PrngReg)

/-! ## At the edge region's entry -/

theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results
theorem V3_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results
theorem V3_arg6 (c : Dev nD) : V3 m ρ c main_arg6 = m ((c : Thread nD τ).loc main_arg6) := by
  show StableHlo.after hostOps0_2 (StableHlo.after hostOps0_1 (StableHlo.after hostOps0 (W0 m ρ c))) (Proc.devRef .tc main_arg6) = _
  after_results
theorem V3_v5 (c : Dev nD) : V3 m ρ c main_v5 = shapeCast S1x128 (m ((c : Thread nD τ).loc main_arg5)) shapeCasts_S128_S1x128 := by
  show StableHlo.after hostOps0_2 (StableHlo.after hostOps0_1 (StableHlo.after hostOps0 (W0 m ρ c))) (Proc.devRef .tc main_v5) = _
  after_results; rfl
theorem V3_v6 (c : Dev nD) : V3 m ρ c main_v6 = shapeCast S1x128 (m ((c : Thread nD τ).loc main_arg7)) shapeCasts_S128_S1x128 := by
  show StableHlo.after hostOps0_2 (StableHlo.after hostOps0_1 (StableHlo.after hostOps0 (W0 m ρ c))) (Proc.devRef .tc main_v6) = _
  after_results; rfl
set_option maxHeartbeats 2000000 in
theorem V3_v4 (c : Dev nD) :
    V3 m ρ c main_v4 = takeFill (m ((c : Thread nD τ).loc main_arg0)) (m ((c : Thread nD τ).loc main_arg1)) := by
  show StableHlo.after hostOps0_2 (StableHlo.after hostOps0_1 (StableHlo.after hostOps0 (W0 m ρ c))) (Proc.devRef .tc main_v4) = _
  after_results_simp
  simp only [HostLine.ofBuf_toBuf]
  unfold takeFill inRange wrapCol colIdx
  refine (toBuf_take _).trans ?_
  congr 1
  all_goals rfl

/-! ## At the node region's entry -/

theorem W3_arg (b : Ref sig .tc) (c : Dev nD)
    (h : StableHlo.after hostOps0_2 (StableHlo.after hostOps0_1 (StableHlo.after hostOps0 (W0 m ρ c))) (Proc.devRef .tc b) = m ((c : Thread nD τ).loc b))
    (hne : ∀ w, Pipeline.arrRef spec0 w ≠ b) : W4 m ρ c (Proc.devRef .tc b) = m ((c : Thread nD τ).loc b) :=
  (W4_of_ne m ρ c b hne).trans h

theorem V5_arg0 (c : Dev nD) : V5 m ρ c main_arg0 = m ((c : Thread nD τ).loc main_arg0) := by
  show StableHlo.after hostOps1 (W4 m ρ c) (Proc.devRef .tc main_arg0) = _
  after_results
  exact W3_arg m ρ main_arg0 c (by after_results) (by decide)
theorem V5_arg8 (c : Dev nD) : V5 m ρ c main_arg8 = m ((c : Thread nD τ).loc main_arg8) := by
  show StableHlo.after hostOps1 (W4 m ρ c) (Proc.devRef .tc main_arg8) = _
  after_results
  exact W3_arg m ρ main_arg8 c (by after_results) (by decide)

end Cert.KernelIdeal.HostValues

end
-- ==== Proof.NodeEntry.lean ====
/-
  What the node region finds at its entry: the aggregate of the edge region's output array at the destination rows,
  the self-interaction's and the projection's biases as rows, and the projection matrix's two halves.
-/
import proofs.«403967_j7275674599677_2_alg».proof.Proof.HostValues

set_option maxRecDepth 16384

noncomputable section

namespace Cert.KernelIdeal.HostValues

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The edge region's output array, as the stretch between the regions finds it. -/
theorem W4_messages (c : Dev nD) : W4 m ρ c (Proc.devRef .tc main_v7) = (dat0 (V3 m ρ) c).arrAt 6 cfg0.N :=
  W4_arr m ρ c 6

/-- The destination rows, untouched by the edge region. -/
theorem W4_rows (c : Dev nD) : W4 m ρ c (Proc.devRef .tc main_v1) = rowIdx (m ((c : Thread nD τ).loc main_arg1)) :=
  (W4_of_ne m ρ c main_v1 (by decide)).trans (by
    show StableHlo.after hostOps0_2 (StableHlo.after hostOps0_1 (StableHlo.after hostOps0 (W0 m ρ c))) (Proc.devRef .tc main_v1) = _
    after_results; rfl)

theorem V5_v10 (c : Dev nD) :
    V5 m ρ c main_v10 = aggregate (m ((c : Thread nD τ).loc main_arg1)) ((dat0 (V3 m ρ) c).arrAt 6 cfg0.N) := by
  show StableHlo.after hostOps1 (W4 m ρ c) (Proc.devRef .tc main_v10) = _
  after_results
  rw [W4_messages, W4_rows]
  rfl

theorem V5_v11 (c : Dev nD) : V5 m ρ c main_v11 = shapeCast S1x128 (m ((c : Thread nD τ).loc main_arg9)) shapeCasts_S128_S1x128 := by
  show StableHlo.after hostOps1 (W4 m ρ c) (Proc.devRef .tc main_v11) = _
  after_results
  rw [W3_arg m ρ main_arg9 c (by after_results) (by decide)]
  rfl
theorem V5_v12 (c : Dev nD) : V5 m ρ c main_v12 = shapeCast S1x128 (m ((c : Thread nD τ).loc main_arg11)) shapeCasts_S128_S1x128 := by
  show StableHlo.after hostOps1 (W4 m ρ c) (Proc.devRef .tc main_v12) = _
  after_results
  rw [W3_arg m ρ main_arg11 c (by after_results) (by decide)]
  rfl
theorem V5_v13 (c : Dev nD) :
    V5 m ρ c main_v13 = extractStridedSlice S128x128 ![0, 0] (m ((c : Thread nD τ).loc main_arg10)) slices_S256x128_S128x128_0_0 := by
  show StableHlo.after hostOps1 (W4 m ρ c) (Proc.devRef .tc main_v13) = _
  after_results
  rw [W3_arg m ρ main_arg10 c (by after_results) (by decide)]
theorem V5_v14 (c : Dev nD) :
    V5 m ρ c main_v14 = extractStridedSlice S128x128 ![128, 0] (m ((c : Thread nD τ).loc main_arg10)) slices_S256x128_S128x128_128_0 := by
  show StableHlo.after hostOps1 (W4 m ρ c) (Proc.devRef .tc main_v14) = _
  after_results
  rw [W3_arg m ρ main_arg10 c (by after_results) (by decide)]

end Cert.KernelIdeal.HostValues

end
-- ==== Proof.TakeInRange.lean ====
import proofs.«403967_j7275674599677_2_alg».proof.Defs
import proofs.«403967_j7275674599677_2_alg».proof.Proof.Gen.Pre_finite_inputs
import proofs.«403967_j7275674599677_2_alg».proof.Proof.Gen.KernelIdeal
import proofs.«403967_j7275674599677_2_alg».proof.Proof.HostValues
import Idealize.ShloMosaic.Lib.ReduceAll
import Idealize.ShloMosaic.Lib.StableHlo.Predicate
import Idealize.ShloMosaic.Lib.ValueIdx
import Idealize.ShloMosaic.Lib.Pipeline.Value

set_option maxRecDepth 16384

noncomputable section

namespace Cert.KernelIdeal.TakeInRange

open Cert.KernelIdeal Cert.KernelIdeal.Gen
open Idealize.ShloMosaic Idealize.ShloMosaic.TcCoe Idealize.ShloMosaic.ValueIdx Idealize.SL.Sem

/-! ## Words -/

/-- A signed word in `[-100000, 100000)`, with the table's length added when it is negative, lies in `[0, 99999]`. -/
theorem wrapped_word_in_range (w : BitVec 32) (hlo : (-100000 : Int) ≤ w.toInt) (hhi : w.toInt < 100000) :
    IntOp.cmpi .sge (Scalar.select (IntOp.cmpi .slt w 0#32) (IntOp.addi w 100000#32) w) 0#32 = 1#1
      ∧ IntOp.cmpi .sle (Scalar.select (IntOp.cmpi .slt w 0#32) (IntOp.addi w 100000#32) w) 99999#32 = 1#1 := by
  have h0 : (0#32 : BitVec 32).toInt = 0 := by decide
  have h1 : (99999#32 : BitVec 32).toInt = 99999 := by decide
  have h2 : (100000#32 : BitVec 32).toInt = 100000 := by decide
  rw [IntOp.cmpi_sge, IntOp.cmpi_sle, h0, h1]
  by_cases hneg : IntOp.cmpi .slt w 0#32 = 1#1
  · -- a negative index: the sum does not leave the signed range, so it is the integers' sum
    have hw : w.toInt < 0 := by rw [IntOp.cmpi_slt, h0] at hneg; exact hneg
    have hs : (IntOp.addi w 100000#32).toInt = w.toInt + 100000 := by
      show (w + 100000#32).toInt = _
      rw [BitVec.toInt_add, h2]
      exact Int.bmod_eq_of_le_mul_two (by omega) (by omega)
    rw [hneg, select_one, hs]
    omega
  · -- a nonnegative index is kept
    have hw : ¬ w.toInt < 0 := by rw [IntOp.cmpi_slt, h0] at hneg; exact hneg
    rw [eq_zero_of_ne_one hneg, select_zero]
    omega

/-! ## The conjunction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

/-! ## What the precondition says of the column indices -/

/-- The scalar shape has one index. -/
instance : Subsingleton Cert.Pre_finite_inputs.S_.Idx := ⟨fun a b => funext fun d => d.elim0⟩

/-- The precondition's last conjunct, read at edge `e`: the column index is in `[-100000, 100000)`, signed. -/
theorem col_in_range (m : (ℓ : Loc nD τ sig) → Buf (Elt Ideal) ℓ) (hpre : Cert.Pre_KernelIdeal m) (c : Dev nD) (e : S1600000.Idx) :
    (-100000 : Int) ≤ (HostValues.colIdx (m ((c : Thread nD τ).loc main_arg1)) e).toInt
      ∧ (HostValues.colIdx (m ((c : Thread nD τ).loc main_arg1)) e).toInt < 100000 := by
  have h := congrFun (hpre c) ValueIdx.ix0
  dsimp only [Cert.Pre_finite_inputs.fn, Cert.Pre_finite_inputs.fn_part1, Cert.Pre_finite_inputs.fn_part2,
    Cert.Pre_finite_inputs.fn_part3] at h
  have hall := (IntOp.andi_eq_one.1 h).2
  have he := Host.reduce_andi_all _ _ _ _ _ hall e
  obtain ⟨hge, hlt⟩ := IntOp.andi_eq_one.1 he
  have hge' : IntOp.cmpi .sge (HostValues.colIdx (m ((c : Thread nD τ).loc main_arg1)) e) 4294867296#32 = 1#1 := hge
  have hlt' : IntOp.cmpi .slt (HostValues.colIdx (m ((c : Thread nD τ).loc main_arg1)) e) 100000#32 = 1#1 := hlt
  rw [IntOp.cmpi_sge, show (4294867296#32 : BitVec 32).toInt = -100000 from by decide] at hge'
  rw [IntOp.cmpi_slt, show (100000#32 : BitVec 32).toInt = 100000 from by decide] at hlt'
  exact ⟨hge', hlt'⟩

/-! ## The wrapped index and the range test at an index -/

/-- The wrapped column of start indices at `k`: the column index of edge `k 0`, the table's length added when negative. -/
theorem wrapCol_apply (ei : IVec S2x1600000 32) (k : S1600000x1.Idx) :
    HostValues.wrapCol ei k
      = Scalar.select (IntOp.cmpi .slt (HostValues.colIdx ei (ix1 (n := 1600000) (k 0))) 0#32)
          (IntOp.addi (HostValues.colIdx ei (ix1 (n := 1600000) (k 0))) 100000#32) (HostValues.colIdx ei (ix1 (n := 1600000) (k 0))) := by
  unfold HostValues.wrapCol
  refine (broadcastInDim_apply _ bcast_S1600000_S1600000x1_0 _ k (ix1 (n := 1600000) (k 0)) (fun a => ?_)).trans rfl
  match a with
  | ⟨0, _⟩ => show (k 0).val = if (1600000 : Nat) = 1 then 0 else (k 0).val; rw [if_neg (by decide)]

/-- Under the precondition the range test passes at every edge and channel. -/
theorem inRange_ones (m : (ℓ : Loc nD τ sig) → Buf (Elt Ideal) ℓ) (hpre : Cert.Pre_KernelIdeal m) (c : Dev nD) :
    HostValues.inRange (m ((c : Thread nD τ).loc main_arg1)) = fun _ => 1#1 := by
  funext i
  unfold HostValues.inRange
  refine (broadcastInDim_apply _ bcast_S1600000_S1600000x128_0 _ i (ix1 (n := 1600000) (i 0)) (fun a => ?_)).trans ?_
  · match a with
    | ⟨0, _⟩ => show (i 0).val = if (1600000 : Nat) = 1 then 0 else (i 0).val; rw [if_neg (by decide)]
  · refine reduce_andi_ones _ _ _ _ (fun k => ?_) rfl _
    obtain ⟨hlo, hhi⟩ := col_in_range m hpre c (ix1 (n := 1600000) (k 0))
    obtain ⟨h1, h2⟩ := wrapped_word_in_range _ hlo hhi
    show IntOp.andi (IntOp.cmpi .sge (HostValues.wrapCol (m ((c : Thread nD τ).loc main_arg1)) k) 0#32)
      (IntOp.cmpi .sle (HostValues.wrapCol (m ((c : Thread nD τ).loc main_arg1)) k) 99999#32) = 1#1
    rw [wrapCol_apply, h1, h2]
    rfl

/-- Under the precondition every wrapped column index is inside the table, so no row of the take is filled: the
    kernel's neighbour features are the gather itself. -/
theorem takeFill_eq_gather (m : (ℓ : Loc nD τ sig) → Buf (Elt Ideal) ℓ) (hpre : Cert.Pre_KernelIdeal m) (c : Dev nD) :
    HostValues.takeFill (F := Ideal) (m ((c : Thread nD τ).loc main_arg0)) (m ((c : Thread nD τ).loc main_arg1))
      = Host.gather gather_S100000x128_S1600000x1_S1600000x128_1_0_n_n_0_1_1128 (m ((c : Thread nD τ).loc main_arg0))
          (HostValues.wrapCol (m ((c : Thread nD τ).loc main_arg1))) := by
  unfold HostValues.takeFill
  rw [inRange_ones m hpre c]
  funext i
  exact select_one _ _

end Cert.KernelIdeal.TakeInRange

end
-- ==== Proof.Layout.lean ====
/-
  The layout operations the host applies to the small operands, read as the specification's own re-indexings:
  a bias reshaped to a one-row matrix, and the two static slices of the projection matrix.
-/
import proofs.«403967_j7275674599677_2_alg».proof.Proof.Spec
import Idealize.ShloMosaic.Lib.Pipeline.Value
import Idealize.ShloMosaic.Lib.ValueLayout
import Idealize.ShloMosaic.Lib.ValueIdx

noncomputable section

namespace Cert.Spec

open Idealize.ShloMosaic Idealize.ShloMosaic.ValueIdx

/-- A [128] vector reshaped to [1, 128] is the vector as a row. -/
theorem shapeCast_row (b : FVec Ideal ⟨1, ![128]⟩ .f32) (h : (⟨1, ![128]⟩ : Shape).ShapeCasts ⟨2, ![1, 128]⟩) :
    shapeCast ⟨2, ![1, 128]⟩ b h = rowOf b := by
  funext i
  obtain ⟨u, q, rfl⟩ : ∃ (u : Fin 1) (q : Fin 128), i = ix2 u q := ⟨i 0, i 1, eq_ix2 i⟩
  rw [shapeCast_a_1a_apply b h u q]
  rfl

/-- The slice [0:128, 0:128] of a [256, 128] matrix is its upper half. -/
theorem slice_top (w : FVec Ideal ⟨2, ![256, 128]⟩ .f32) (h : (⟨2, ![256, 128]⟩ : Shape).Slices ![0, 0] ⟨2, ![128, 128]⟩) :
    extractStridedSlice ⟨2, ![128, 128]⟩ ![0, 0] w h = topOf w := by
  funext i
  refine extractStridedSlice_apply ![0, 0] w h i _ (fun a => ?_)
  match a with
  | ⟨0, _⟩ => show (i 0).val = 0 + (i 0).val; omega
  | ⟨1, _⟩ => show (i 1).val = 0 + (i 1).val; omega

/-- The slice [128:256, 0:128] of a [256, 128] matrix is its lower half. -/
theorem slice_bot (w : FVec Ideal ⟨2, ![256, 128]⟩ .f32) (h : (⟨2, ![256, 128]⟩ : Shape).Slices ![128, 0] ⟨2, ![128, 128]⟩) :
    extractStridedSlice ⟨2, ![128, 128]⟩ ![128, 0] w h = botOf w := by
  funext i
  refine extractStridedSlice_apply ![128, 0] w h i _ (fun a => ?_)
  match a with
  | ⟨0, _⟩ => show (i 0).val + 128 = 128 + (i 0).val; omega
  | ⟨1, _⟩ => show (i 1).val = 0 + (i 1).val; omega

end Cert.Spec

end
-- ==== Proof.Result.lean ====
/-
  The layer's result as one function of its arguments: the node stage applied to the features and to the aggregate,
  at the destination rows, of the edge messages computed from the neighbour features gathered at the wrapped columns.
-/
import proofs.«403967_j7275674599677_2_alg».proof.Proof.HostValues
import proofs.«403967_j7275674599677_2_alg».proof.Proof.Spec

noncomputable section

namespace Cert.KernelIdeal

open Idealize.ShloMosaic

/-- The result array from the argument arrays (`edge_sh` does not enter: the tensor product is scalar). -/
def result (nf : FVec Ideal S100000x128 .f32) (ei : IVec S2x1600000 32) (rbf : FVec Ideal S1600000x8 .f32)
    (w1 : FVec Ideal S8x128 .f32) (b1 : FVec Ideal S128 .f32) (w2 : FVec Ideal S128x128 .f32) (b2 : FVec Ideal S128 .f32)
    (wself : FVec Ideal S128x128 .f32) (bself : FVec Ideal S128 .f32) (wcat : FVec Ideal S256x128 .f32) (bcat : FVec Ideal S128 .f32) :
    FVec Ideal S100000x128 .f32 :=
  Cert.Spec.nodeOut nf
    (HostValues.aggregate ei
      (Cert.Spec.messages rbf
        (Host.gather gather_S100000x128_S1600000x1_S1600000x128_1_0_n_n_0_1_1128 nf (HostValues.wrapCol ei))
        w1 (Cert.Spec.rowOf b1) w2 (Cert.Spec.rowOf b2)))
    wself (Cert.Spec.rowOf bself) (Cert.Spec.topOf wcat) (Cert.Spec.botOf wcat) (Cert.Spec.rowOf bcat)

end Cert.KernelIdeal

end
-- ==== Proof.KernelValue.lean ====
/-
  The kernel's result array at the last boundary is the layer's result function of the launch arguments, under the
  precondition: the node region's output is the node stage of what it finds; it finds the features, the aggregate of
  the edge region's output and the reshaped and sliced small operands; the edge region's output is the message
  function of what IT finds, among it the filled take, which under the precondition is the gather itself.
-/
import proofs.«403967_j7275674599677_2_alg».proof.Proof.EdgeArray
import proofs.«403967_j7275674599677_2_alg».proof.Proof.NodeArray
import proofs.«403967_j7275674599677_2_alg».proof.Proof.NodeEntry
import proofs.«403967_j7275674599677_2_alg».proof.Proof.TakeInRange
import proofs.«403967_j7275674599677_2_alg».proof.Proof.Layout
import proofs.«403967_j7275674599677_2_alg».proof.Proof.Result

set_option maxRecDepth 16384

noncomputable section

namespace Cert.KernelIdeal.KernelValue

open Cert.KernelIdeal Cert.KernelIdeal.Gen Cert.KernelIdeal.HostValues
open Idealize.ShloMosaic Idealize.ShloMosaic.TcCoe Idealize.SL.Sem

variable (m : (ℓ : Loc nD τ sig) → Buf (Elt Ideal) ℓ) (ρ : Dev nD → PrngReg)

/-- The edge region's output array from the launch arguments. -/
theorem messages_value (hpre : Cert.Pre_KernelIdeal m) (c : Dev nD) :
    (dat0 (F := Ideal) (V3 m ρ) c).arrAt 6 cfg0.N
      = Cert.Spec.messages (m ((c : Thread nD τ).loc main_arg2))
          (Host.gather gather_S100000x128_S1600000x1_S1600000x128_1_0_n_n_0_1_1128 (m ((c : Thread nD τ).loc main_arg0))
            (wrapCol (m ((c : Thread nD τ).loc main_arg1))))
          (m ((c : Thread nD τ).loc main_arg4)) (Cert.Spec.rowOf (m ((c : Thread nD τ).loc main_arg5)))
          (m ((c : Thread nD τ).loc main_arg6)) (Cert.Spec.rowOf (m ((c : Thread nD τ).loc main_arg7))) := by
  rw [Cert.KernelIdeal.Edge.edge_array (V3 m ρ) c, V3_arg2, V3_v4, V3_arg4, V3_v5, V3_arg6, V3_v6,
    Cert.KernelIdeal.TakeInRange.takeFill_eq_gather m hpre c, Cert.Spec.shapeCast_row, Cert.Spec.shapeCast_row]

/-- The result array at the last boundary from the launch arguments. -/
theorem result_value (hpre : Cert.Pre_KernelIdeal m) (c : Dev nD) :
    W6 m ρ c (Proc.devRef .tc main_v15)
      = Cert.KernelIdeal.result (m ((c : Thread nD τ).loc main_arg0)) (m ((c : Thread nD τ).loc main_arg1))
          (m ((c : Thread nD τ).loc main_arg2)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  refine (W6_arr m ρ c 7).trans ?_
  rw [Cert.KernelIdeal.Node.node_array (V5 m ρ) c, V5_arg0, V5_v10, V5_arg8, V5_v11, V5_v13, V5_v14, V5_v12,
    messages_value m ρ hpre c, Cert.Spec.shapeCast_row, Cert.Spec.shapeCast_row, Cert.Spec.slice_top, Cert.Spec.slice_bot]
  rfl

end Cert.KernelIdeal.KernelValue

end
-- ==== Proof.RefEdge.lean ====
import proofs.«403967_j7275674599677_2_alg».proof.Proof.Gen.ReferenceIdeal.Run
import proofs.«403967_j7275674599677_2_alg».proof.Proof.Gen.ReferenceIdeal.Read
import proofs.«403967_j7275674599677_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.ReferenceIdeal.RefEdge

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-! ## The radial network, layer by layer, at edge `e` -/

/-- First layer before the activation: the affine image of edge `e`'s eight radial basis values at hidden channel `k`,
    the bias read through its one-row form. -/
theorem affine_apply (x2 : (⟨S1600000x8, .f32⟩ : BufTy).Contents (Elt Ideal)) (x4 : (⟨S8x128, .f32⟩ : BufTy).Contents (Elt Ideal))
    (x5 : (⟨S128, .f32⟩ : BufTy).Contents (Elt Ideal)) (e : Fin 1600000) (k : Fin 128) :
    val_main_v7 (F := Ideal) x2 x4 x5 (ix2 e k)
      = (∑ j : Fin 8, x2 (ix2 e j) * x4 (ix2 j k)) + Cert.Spec.rowOf x5 (ix2 0 k) := by
  have hl : ∀ j : Fin 8, lidx_main_v4 (ix2 e k) j = ix2 e j := fun j =>
    funext fun a => Fin.ext (by match a with | ⟨0, _⟩ => rfl | ⟨1, _⟩ => rfl)
  have hr : ∀ j : Fin 8, ridx_main_v4 (ix2 e k) j = ix2 j k := fun j =>
    funext fun a => Fin.ext (by match a with | ⟨0, _⟩ => rfl | ⟨1, _⟩ => rfl)
  have hb : idx_main_v5 (idx_main_v6 (ix2 e k)) = ix1 k :=
    funext fun a => Fin.ext (by match a with | ⟨0, _⟩ => rfl)
  rw [val_main_v7_apply, val_main_v4_apply, val_main_v6_apply, val_main_v5_apply, hb]
  simp only [hl, hr, Ideal.addf_def]
  rfl

/-- The gate `1 / (1 + e^(-x))`, spelled by the reference as negate, exponential, add to one and divide one by it,
    is the logistic function of the affine image. -/
theorem gate_apply (x2 : (⟨S1600000x8, .f32⟩ : BufTy).Contents (Elt Ideal)) (x4 : (⟨S8x128, .f32⟩ : BufTy).Contents (Elt Ideal))
    (x5 : (⟨S128, .f32⟩ : BufTy).Contents (Elt Ideal)) (i : S1600000x128.Idx) :
    val_main_call0_v5 (F := Ideal) x2 x4 x5 i = Ideal.logistic (val_main_v7 (F := Ideal) x2 x4 x5 i) := by
  rw [val_main_call0_v5_apply, val_main_call0_v4_apply, val_main_call0_cst_0_apply, val_main_call0_v3_apply,
    val_main_call0_v2_apply, val_main_call0_cst_apply, val_main_call0_v1_apply, val_main_call0_v0_apply]
  simp only [Ideal.hostDivf_def, Ideal.ofBits_def, Ideal.ofBits_one_f32, Ideal.addf_def, Ideal.hostUnary_exp_def,
    Ideal.hostNegf_def, Ideal.negf_def]
  rfl

/-- The hidden activation: the affine image times its gate. -/
theorem hidden_apply (x2 : (⟨S1600000x8, .f32⟩ : BufTy).Contents (Elt Ideal)) (x4 : (⟨S8x128, .f32⟩ : BufTy).Contents (Elt Ideal))
    (x5 : (⟨S128, .f32⟩ : BufTy).Contents (Elt Ideal)) (e : Fin 1600000) (k : Fin 128) :
    val_main_v8 (F := Ideal) x2 x4 x5 (ix2 e k) = Cert.Spec.hidden x2 x4 (Cert.Spec.rowOf x5) e k := by
  rw [val_main_v8_apply, gate_apply, affine_apply]
  rfl

/-- Second layer: the per-edge weight at channel `d`. -/
theorem weight_apply (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (e : Fin 1600000) (d : Fin 128) :
    val_main_v12 (F := Ideal) x2 x4 x5 x6 x7 (ix2 e d)
      = Cert.Spec.weight x2 x4 (Cert.Spec.rowOf x5) x6 (Cert.Spec.rowOf x7) e d := by
  have hl : ∀ k : Fin 128, lidx_main_v9 (ix2 e d) k = ix2 e k := fun k =>
    funext fun a => Fin.ext (by match a with | ⟨0, _⟩ => rfl | ⟨1, _⟩ => rfl)
  have hr : ∀ k : Fin 128, ridx_main_v9 (ix2 e d) k = ix2 k d := fun k =>
    funext fun a => Fin.ext (by match a with | ⟨0, _⟩ => rfl | ⟨1, _⟩ => rfl)
  have hb : idx_main_v10 (idx_main_v11 (ix2 e d)) = ix1 d :=
    funext fun a => Fin.ext (by match a with | ⟨0, _⟩ => rfl)
  rw [val_main_v12_apply, val_main_v9_apply, val_main_v11_apply, val_main_v10_apply, hb]
  simp only [hl, hr, hidden_apply, Ideal.addf_def]
  rfl

/-- The reference's per-edge messages are the message function of its own gathered neighbour features. -/
theorem messages_eq (x0 : (⟨S100000x128, .f32⟩ : BufTy).Contents (Elt Ideal)) (x1 : (⟨S2x1600000, .i32⟩ : BufTy).Contents (Elt Ideal))
    (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v23 (F := Ideal) x0 x1 x2 x4 x5 x6 x7
      = Cert.Spec.messages x2 (val_main_v20 (F := Ideal) x0 x1) x4 (Cert.Spec.rowOf x5) x6 (Cert.Spec.rowOf x7) := by
  funext i
  obtain ⟨e, d, rfl⟩ : ∃ (e : Fin 1600000) (d : Fin 128), i = ix2 e d := ⟨i 0, i 1, eq_ix2 i⟩
  -- the unit axis that the product is laid on and summed over again carries one term, at the edge and channel themselves
  have hn : ∀ k : Fin 1, idx_main_v21 (idx_main_v23 (ix2 e d) k) = ix2 e d := fun k =>
    funext fun a => Fin.ext (by match a with | ⟨0, _⟩ => rfl | ⟨1, _⟩ => rfl)
  have hw : ∀ k : Fin 1, idx_main_v13 (idx_main_v23 (ix2 e d) k) = ix2 e d := fun k =>
    funext fun a => Fin.ext (by
      have hk : k.val < 1 := k.isLt
      have hd : d.val < 128 := d.isLt
      match a with
      | ⟨0, _⟩ => show ((e.val * 128 + d.val) * 1 + k.val) / 128 = e.val; omega
      | ⟨1, _⟩ => show ((e.val * 128 + d.val) * 1 + k.val) % 128 = d.val; omega)
  rw [val_main_v23_apply, val_main_cst_apply]
  simp only [val_main_v22_apply, val_main_v21_apply, val_main_v13_apply, hn, hw, weight_apply, Fin.sum_univ_one,
    Ideal.ofBits_def, Ideal.ofBits_zero_f32, Ideal.mulf_def, zero_add]
  rfl

end Cert.ReferenceIdeal.RefEdge

end
-- ==== Proof.RefNode.lean ====
import proofs.«403967_j7275674599677_2_alg».proof.Proof.Gen.ReferenceIdeal.Run
import proofs.«403967_j7275674599677_2_alg».proof.Proof.Gen.ReferenceIdeal.Read
import proofs.«403967_j7275674599677_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefNode

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- A sum over 256 terms is the sum of its first 128 terms plus the sum of its last 128 terms. -/
theorem sum_two_halves (f : Fin 256 → EReal) :
    ∑ k : Fin 256, f k
      = (∑ k : Fin 128, f ⟨k.val, by have h := k.isLt; omega⟩) + ∑ k : Fin 128, f ⟨k.val + 128, by have h := k.isLt; omega⟩ := by
  refine (Fin.sum_univ_add (a := 128) (b := 128) f).trans ?_
  rfl

/-- The joined array (self-interaction | aggregate) at a column below 128 is the self-interaction there. -/
theorem joined_left (x0 : (⟨S100000x128, .f32⟩ : BufTy).Contents (Elt Ideal)) (x1 : (⟨S2x1600000, .i32⟩ : BufTy).Contents (Elt Ideal))
    (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (n : Fin 100000) (k : Fin 128) (hk : k.val < 256) :
    val_main_v31 (F := Ideal) x0 x1 x2 x4 x5 x6 x7 x8 x9 (ix2 n ⟨k.val, hk⟩)
      = val_main_v30 (F := Ideal) x0 x8 x9 (ix2 n k) := by
  unfold val_main_v31
  exact concatenate_pair_apply_left (1 : Fin S100000x256.rank) _ _ concatenates_S100000x128_S100000x128_S100000x256_d1
    (ix2 n ⟨k.val, hk⟩) rfl (ix2 n k) (fun b => match b with
      | ⟨0, _⟩ => rfl
      | ⟨1, _⟩ => rfl)

/-- The joined array at a column 128 + k is the aggregate at column k. -/
theorem joined_right (x0 : (⟨S100000x128, .f32⟩ : BufTy).Contents (Elt Ideal)) (x1 : (⟨S2x1600000, .i32⟩ : BufTy).Contents (Elt Ideal))
    (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (n : Fin 100000) (k : Fin 128) (hk : k.val + 128 < 256) :
    val_main_v31 (F := Ideal) x0 x1 x2 x4 x5 x6 x7 x8 x9 (ix2 n ⟨k.val + 128, hk⟩)
      = val_main_v26 (F := Ideal) x0 x1 x2 x4 x5 x6 x7 (ix2 n k) := by
  unfold val_main_v31
  exact concatenate_pair_apply_right (1 : Fin S100000x256.rank) _ _ concatenates_S100000x128_S100000x128_S100000x256_d1
    (ix2 n ⟨k.val + 128, hk⟩) rfl rfl (ix2 n k) (fun b => match b with
      | ⟨0, _⟩ => fun _ => rfl
      | ⟨1, _⟩ => fun h => absurd rfl h) rfl

/-- The self-interaction stage at node n, channel k, is the specification's self-interaction. -/
theorem self_interaction_apply (x0 : (⟨S100000x128, .f32⟩ : BufTy).Contents (Elt Ideal))
    (x8 : (⟨S128x128, .f32⟩ : BufTy).Contents (Elt Ideal)) (x9 : (⟨S128, .f32⟩ : BufTy).Contents (Elt Ideal))
    (n : Fin 100000) (k : Fin 128) :
    val_main_v30 (F := Ideal) x0 x8 x9 (ix2 n k) = Cert.Spec.selfOut x0 x8 (Cert.Spec.rowOf x9) n k := by
  have el : ∀ j : Fin 128, lidx_main_v27 (ix2 n k) j = ix2 n j := fun j => funext fun a => Fin.ext (by
    match a with
    | ⟨0, _⟩ => rfl
    | ⟨1, _⟩ => rfl)
  have er : ∀ j : Fin 128, ridx_main_v27 (ix2 n k) j = ix2 j k := fun j => funext fun a => Fin.ext (by
    match a with
    | ⟨0, _⟩ => rfl
    | ⟨1, _⟩ => rfl)
  have eb : idx_main_v28 (idx_main_v29 (ix2 n k)) = ix1 k := funext fun a => Fin.ext (by
    match a with
    | ⟨0, _⟩ => rfl)
  rw [val_main_v30_apply, val_main_v27_apply, val_main_v29_apply, val_main_v28_apply, Ideal.addf_def, eb]
  simp only [el, er]
  rfl

/-- The reference's result is the node-stage function of its own aggregate, the projection matrix cut in two halves. -/
theorem result_eq (x0 : (⟨S100000x128, .f32⟩ : BufTy).Contents (Elt Ideal)) (x1 : (⟨S2x1600000, .i32⟩ : BufTy).Contents (Elt Ideal))
    (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S256x128, .f32⟩ : BufTy).Contents (Elt Ideal))
    (x11 : (⟨S128, .f32⟩ : BufTy).Contents (Elt Ideal)) :
    val_main_v35 (F := Ideal) x0 x1 x2 x4 x5 x6 x7 x8 x9 x10 x11
      = Cert.Spec.nodeOut x0 (val_main_v26 (F := Ideal) x0 x1 x2 x4 x5 x6 x7) x8 (Cert.Spec.rowOf x9)
          (Cert.Spec.topOf x10) (Cert.Spec.botOf x10) (Cert.Spec.rowOf x11) := by
  funext i
  obtain ⟨n, d, rfl⟩ : ∃ (n : Fin 100000) (d : Fin 128), i = ix2 n d := ⟨i 0, i 1, eq_ix2 i⟩
  have el : ∀ (k : Fin 256), lidx_main_v32 (ix2 n d) k = ix2 n k := fun k => funext fun a => Fin.ext (by
    match a with
    | ⟨0, _⟩ => rfl
    | ⟨1, _⟩ => rfl)
  have er : ∀ (k : Fin 256), ridx_main_v32 (ix2 n d) k = ix2 k d := fun k => funext fun a => Fin.ext (by
    match a with
    | ⟨0, _⟩ => rfl
    | ⟨1, _⟩ => rfl)
  have eb : idx_main_v33 (idx_main_v34 (ix2 n d)) = ix1 d := funext fun a => Fin.ext (by
    match a with
    | ⟨0, _⟩ => rfl)
  rw [val_main_v35_apply, val_main_v32_apply, val_main_v34_apply, val_main_v33_apply, Ideal.addf_def, eb]
  simp only [el, er]
  rw [sum_two_halves]
  simp only [joined_left, joined_right, self_interaction_apply]
  rfl

end Cert.ReferenceIdeal.RefNode

end
-- ==== Proof.RefBridge.lean ====
/-
  The reference's final stage is the layer's result function of the reference's own arguments: its result is the
  node stage of its aggregate, its aggregate the scatter-add of its messages, its messages the message function of
  its gathered neighbour features — the same gather at the same wrapped columns.
-/
import proofs.«403967_j7275674599677_2_alg».proof.Proof.RefEdge
import proofs.«403967_j7275674599677_2_alg».proof.Proof.RefNode
import proofs.«403967_j7275674599677_2_alg».proof.Proof.Result

set_option maxRecDepth 16384

noncomputable section

namespace Cert.ReferenceIdeal.RefBridge

open Cert.ReferenceIdeal Cert.ReferenceIdeal.Read
open Idealize.ShloMosaic Idealize.ShloMosaic.StableHlo

/-- The reference's gathered neighbour features are the gather at the wrapped columns. -/
theorem gathered_eq (x0 : (⟨S100000x128, .f32⟩ : BufTy).Contents (Elt Ideal)) (x1 : (⟨S2x1600000, .i32⟩ : BufTy).Contents (Elt Ideal)) :
    val_main_v20 (F := Ideal) x0 x1
      = Host.gather Cert.KernelIdeal.gather_S100000x128_S1600000x1_S1600000x128_1_0_n_n_0_1_1128 x0 (Cert.KernelIdeal.HostValues.wrapCol x1) := rfl

/-- The reference's aggregate is the scatter-add of its messages at the destination rows. -/
theorem aggregate_eq (x0 : (⟨S100000x128, .f32⟩ : BufTy).Contents (Elt Ideal)) (x1 : (⟨S2x1600000, .i32⟩ : BufTy).Contents (Elt Ideal))
    (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) :
    val_main_v26 (F := Ideal) x0 x1 x2 x4 x5 x6 x7
      = Cert.KernelIdeal.HostValues.aggregate (F := Ideal) x1 (val_main_v23 (F := Ideal) x0 x1 x2 x4 x5 x6 x7) := rfl

/-- The reference's result is the layer's result function of its arguments. -/
theorem result_eq (x0 : (⟨S100000x128, .f32⟩ : BufTy).Contents (Elt Ideal)) (x1 : (⟨S2x1600000, .i32⟩ : BufTy).Contents (Elt Ideal))
    (x2 : (⟨S1600000x8, .f32⟩ : BufTy).Contents (Elt Ideal)) (x4 : (⟨S8x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) (x10 : (⟨S256x128, .f32⟩ : BufTy).Contents (Elt Ideal))
    (x11 : (⟨S128, .f32⟩ : BufTy).Contents (Elt Ideal)) :
    val_main_v35 (F := Ideal) x0 x1 x2 x4 x5 x6 x7 x8 x9 x10 x11
      = Cert.KernelIdeal.result x0 x1 x2 x4 x5 x6 x7 x8 x9 x10 x11 := by
  rw [Cert.ReferenceIdeal.RefNode.result_eq, aggregate_eq, Cert.ReferenceIdeal.RefEdge.messages_eq, gathered_eq]
  rfl

end Cert.ReferenceIdeal.RefBridge

end
-- ==== Proof.lean ====
/-
  One layer of scalar (l = 0) message passing: per edge, a two-layer radial network (8 → 128 → 128, silu between)
  weights the neighbour's features, gathered at the edge's source column; the weighted features are summed into the
  edge's destination row; per node, the self-interaction of the features and that aggregate are projected together.

  The kernel computes the edge stage and the node stage in two pipelined regions (4000 edges, 2000 nodes a grid point),
  with the gather, the scatter-add and the small reshapes and slices on the host between them; the reference is plain
  host operations. Over the extended reals the two agree index by index: a matrix product into a zero accumulator is
  the contraction's plain sum on both sides, a change of float format is the identity, `logistic x` is
  `1 / (1 + e^(-x))` spelled out, the sum over a unit axis from 0 is its one term, and the projection of the pair
  (self, aggregate) against the [256, 128] matrix is the sum of the two half products (a finite sum over 256 split as
  128 + 128: no finiteness is used). The one place the programs differ is an edge whose source column lies outside
  the table even after the wrap of negative indices: there the kernel's take writes a fill word where the reference's
  gather clamps. The precondition keeps every source column in [-100000, 100000), the range in which the reference's
  own indexing is inside the array; under it every wrapped column is in range and the take is the gather.

  `preserves` has no entry: the idealized kernel is the kernel's own text read over the extended reals.
-/
import proofs.«403967_j7275674599677_2_alg».proof.Defs
import proofs.«403967_j7275674599677_2_alg».proof.Proof.Gen.Kernel
import proofs.«403967_j7275674599677_2_alg».proof.Proof.Gen.Kernel.Skeleton
import proofs.«403967_j7275674599677_2_alg».proof.Proof.Gen.Kernel.Launch
import proofs.«403967_j7275674599677_2_alg».proof.Proof.Gen.Kernel.Points
import proofs.«403967_j7275674599677_2_alg».proof.Proof.Gen.Kernel.Frame
import proofs.«403967_j7275674599677_2_alg».proof.Proof.Gen.KernelIdeal
import proofs.«403967_j7275674599677_2_alg».proof.Proof.Gen.KernelIdeal.Skeleton
import proofs.«403967_j7275674599677_2_alg».proof.Proof.Gen.KernelIdeal.Launch
import proofs.«403967_j7275674599677_2_alg».proof.Proof.Gen.KernelIdeal.Points
import proofs.«403967_j7275674599677_2_alg».proof.Proof.Gen.KernelIdeal.Frame
import proofs.«403967_j7275674599677_2_alg».proof.Proof.Gen.ReferenceIdeal
import proofs.«403967_j7275674599677_2_alg».proof.Proof.Gen.ReferenceIdeal.Run
import proofs.«403967_j7275674599677_2_alg».proof.Proof.Gen.ReferenceIdeal.Read
import proofs.«403967_j7275674599677_2_alg».proof.Proof.Gen.Pre_finite_inputs
import proofs.«403967_j7275674599677_2_alg».proof.Proof.RunValue
import proofs.«403967_j7275674599677_2_alg».proof.Proof.KernelValue
import proofs.«403967_j7275674599677_2_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

/-- The three programs run to the end, nothing faulting, the arguments as launched: the two kernels by their generated
    frames, the reference by its generated run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's result function of the (agreeing) arguments. -/
theorem algebraic : Cert.algebraic_KernelIdeal_ReferenceIdeal := by
  intro m ρ m' ρ' hpre hagree
  refine ⟨fun c => Cert.KernelIdeal.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.result_value m ρ hpre c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v35_eq, Cert.ReferenceIdeal.RefBridge.result_eq,
      h0, h1, h2, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
